-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S500x512 : Shape := ⟨2, ![500, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S500x512 : S_.BroadcastsInDim S500x512 (![] : Fin 0 → Fin S500x512.rank)
  reducesTo_S500x512_S_d0_1 : S500x512.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : FVec F S500x512 .f32) (main_arg2 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S500x512 .f32 := Host.absf main_arg1
  let main_cst_0 : FVec F S_ .f32 := constant S_ .f32 0x7F800000#32
  let main_v5 : FVec F S500x512 .f32 := broadcastInDim S500x512 ![] bcast_S_S500x512 main_cst_0
  let main_v6 : IVec S500x512 1 := cmpf .olt main_v4 main_v5
  let main_c_1 : IVec S_ 1 := constantI S_ 1 1#1
  let main_v7 : IVec S_ 1 := (fun x v => Host.reduce IntOp.andi x v reducesTo_S500x512_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 500#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x512 : Shape := ⟨2, ![16384, 512]⟩
abbrev S500x512 : Shape := ⟨2, ![500, 512]⟩
abbrev S16384 : Shape := ⟨1, ![16384]⟩
abbrev S16384x1 : Shape := ⟨2, ![16384, 1]⟩
abbrev S512x500 : Shape := ⟨2, ![512, 500]⟩
abbrev S_ : Shape := ⟨0, ![]⟩
abbrev S500 : Shape := ⟨1, ![500]⟩
abbrev S500x1 : Shape := ⟨2, ![500, 1]⟩
abbrev S1x500 : Shape := ⟨2, ![1, 500]⟩
abbrev S2x1x1 : Shape := ⟨3, ![2, 1, 1]⟩
abbrev S2048x512 : Shape := ⟨2, ![2048, 512]⟩
abbrev S2048x1 : Shape := ⟨2, ![2048, 1]⟩
abbrev S1x1x1 : Shape := ⟨3, ![1, 1, 1]⟩
abbrev S1x1 : Shape := ⟨2, ![1, 1]⟩
abbrev S2048 : Shape := ⟨1, ![2048]⟩
abbrev S2048x500 : Shape := ⟨2, ![2048, 500]⟩
abbrev S1x2048x1 : Shape := ⟨3, ![1, 2048, 1]⟩
abbrev S1 : Shape := ⟨1, ![1]⟩

abbrev nBuf : Space → Nat
  | .hbm => 16
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S500x512, .f32⟩
  | .hbm, ⟨2, _⟩ => ⟨S16384, .i32⟩
  | .hbm, ⟨3, _⟩ => ⟨S16384x1, .i32⟩
  | .hbm, ⟨4, _⟩ => ⟨S512x500, .f32⟩
  | .hbm, ⟨5, _⟩ => ⟨S512x500, .bf16⟩
  | .hbm, ⟨6, _⟩ => ⟨S500x512, .f32⟩
  | .hbm, ⟨7, _⟩ => ⟨S_, .f32⟩
  | .hbm, ⟨8, _⟩ => ⟨S500, .f32⟩
  | .hbm, ⟨9, _⟩ => ⟨S500x1, .f32⟩
  | .hbm, ⟨10, _⟩ => ⟨S1x500, .f32⟩
  | .hbm, ⟨11, _⟩ => ⟨S2x1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S512x500, .bf16⟩
  | .local _ .vmem, ⟨3, _⟩ => ⟨S1x500, .f32⟩
  | .local _ .vmem, ⟨4, _⟩ => ⟨S2048x1, .i32⟩
  | .local _ .vmem, ⟨5, _⟩ => ⟨S2048x1, .i32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_23 : BitVec 32 := 0#32
  let v55 : BitVec 1 := Scalar.cmpi .ne v54 c0_i32_23
  v55

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x500 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384_S16384x1 : S16384.ShapeCasts S16384x1
  transposes_S500x512_S512x500_1_0 : S500x512.Transposes [1, 0] S512x500
  bitsLt_bf16_f32 : FTy.bits .bf16 < FTy.bits .f32
  reducesTo_S500x512_S500_d1 : S500x512.ReducesTo [1] S500
  h_S_ : 0 < S_.numel
  bcast_S500_S500x1_0 : S500.BroadcastsInDim S500x1 (![0] : Fin 1 → Fin S500x1.rank)
  transposes_S500x1_S1x500_1_0 : S500x1.Transposes [1, 0] S1x500
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  inb_S512x500_S512x500_0_0 : ∀ a, (![0, 0] : Fin 2 → Nat) a + S512x500.size a ≤ S512x500.size a
  h_S512x500 : 0 < S512x500.numel
  shapeCasts_S512x500_S512x500 : S512x500.ShapeCasts S512x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  reduces_S2048x512_S2048 : S2048x512.Reduces [1] S2048
  shapeCasts_S2048_S2048x1 : S2048.ShapeCasts S2048x1
  broadcasts_S2048x1_S2048x500 : S2048x1.Broadcasts S2048x500
  broadcasts_S1x500_S2048x500 : S1x500.Broadcasts S2048x500
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x500_d1_w32 : S2048x500.Iotas .tc 32 [1]
  reduces_S2048x500_S2048 : S2048x500.Reduces [1] S2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  dot_S2048x512_S512x500_S2048x500_1_0_0_1_n_n_wf : DotDims.WF S2048x512 S512x500 S2048x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x500.size a ≤ S512x500.size a
  hwx0_1 : ∀ i : grid0.Coords, EltTy.bits .bf16 = 32 ∨ (Rect.block (s := S512x500) S512x500.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x500.size a ≤ S1x500.size a
  hwx0_2 : ∀ i : grid0.Coords, EltTy.bits .f32 = 32 ∨ (Rect.block (s := S1x500) S1x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .i32 = 32 ∨ (Rect.block (s := S16384x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S2048x512_S512x500_S2048x500_1_0_0_1_n_n : DotDims S2048x512 S512x500 S2048x500 where
  lhsContracting := [1]
  rhsContracting := [0]
  lhsNonContracting := [0]
  rhsNonContracting := [1]
  lhsBatch := []
  rhsBatch := []
  wf := dot_S2048x512_S512x500_S2048x500_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S500x512 : Shape := ⟨2, ![500, 512]⟩
abbrev S16384 : Shape := ⟨1, ![16384]⟩
abbrev S_ : Shape := ⟨0, ![]⟩
abbrev S16384x1 : Shape := ⟨2, ![16384, 1]⟩
abbrev S500 : Shape := ⟨1, ![500]⟩
abbrev S1x500 : Shape := ⟨2, ![1, 500]⟩
abbrev S16384x500 : Shape := ⟨2, ![16384, 500]⟩
abbrev S512x500 : Shape := ⟨2, ![512, 500]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S500x512, .f32⟩
  | .hbm, ⟨2, _⟩ => ⟨S16384, .i32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S500x512, .f32⟩
  | .hbm, ⟨8, _⟩ => ⟨S_, .f32⟩
  | .hbm, ⟨9, _⟩ => ⟨S500, .f32⟩
  | .hbm, ⟨10, _⟩ => ⟨S1x500, .f32⟩
  | .hbm, ⟨11, _⟩ => ⟨S16384x500, .f32⟩
  | .hbm, ⟨12, _⟩ => ⟨S16384x500, .f32⟩
  | .hbm, ⟨13, _⟩ => ⟨S16384x500, .f32⟩
  | .hbm, ⟨14, _⟩ => ⟨S512x500, .f32⟩
  | .hbm, ⟨15, _⟩ => ⟨S16384x500, .f32⟩
  | .hbm, ⟨16, _⟩ => ⟨S_, .f32⟩
  | .hbm, ⟨17, _⟩ => ⟨S16384x500, .f32⟩
  | .hbm, ⟨18, _⟩ => ⟨S16384x500, .f32⟩
  | .hbm, ⟨19, _⟩ => ⟨S16384x500, .f32⟩
  | .hbm, ⟨20, _⟩ => ⟨S_, .f32⟩
  | .hbm, ⟨21, _⟩ => ⟨S16384x500, .f32⟩
  | .hbm, ⟨22, _⟩ => ⟨S16384x500, .f32⟩
  | .hbm, ⟨23, _⟩ => ⟨S16384x500, .f32⟩
  | .hbm, ⟨24, _⟩ => ⟨S16384x1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S_, .i32⟩
  | .hbm, ⟨29, _⟩ => ⟨S16384x1, .i32⟩
  | .hbm, ⟨30, _⟩ => ⟨S16384x1, .i32⟩
  | .hbm, ⟨31, _⟩ => ⟨S16384x1, .i32⟩
  | .hbm, ⟨32, _⟩ => ⟨S16384x1x1, .i32⟩
  | .hbm, ⟨33, _⟩ => ⟨S1, .i32⟩
  | .hbm, ⟨34, _⟩ => ⟨S_, .i32⟩
  | .hbm, ⟨35, _⟩ => ⟨S16384x1x1, .i32⟩
  | .hbm, ⟨36, _⟩ => ⟨S16384x1x1, .i1⟩
  | .hbm, ⟨37, _⟩ => ⟨S1x1x1, .i32⟩
  | .hbm, ⟨38, _⟩ => ⟨S16384x1x1, .i32⟩
  | .hbm, ⟨39, _⟩ => ⟨S16384x1x1, .i1⟩
  | .hbm, ⟨40, _⟩ => ⟨S16384x1x1, .i1⟩
  | .hbm, ⟨41, _⟩ => ⟨S_, .i1⟩
  | .hbm, ⟨42, _⟩ => ⟨S16384x1, .i1⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384, .f32⟩
  | .hbm, ⟨48, _⟩ => ⟨S16384x1, .i32⟩
  | .hbm, ⟨49, _⟩ => ⟨S1x500, .i32⟩
  | .hbm, ⟨50, _⟩ => ⟨S16384x500, .i32⟩
  | .hbm, ⟨51, _⟩ => ⟨S16384x500, .i32⟩
  | .hbm, ⟨52, _⟩ => ⟨S16384x500, .i1⟩
  | .hbm, ⟨53, _⟩ => ⟨S_, .f32⟩
  | .hbm, ⟨54, _⟩ => ⟨S_, .f32⟩
  | .hbm, ⟨55, _⟩ => ⟨S16384x500, .f32⟩
  | .hbm, ⟨56, _⟩ => ⟨S16384x500, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v18 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_v20 : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_v21 : Ref sig .tc := ⟨.hbm, 56, rfl⟩
abbrev main_cst_4 : Ref sig .tc := ⟨.hbm, 57, rfl⟩
abbrev main_v22 : Ref sig .tc := ⟨.hbm, 58, rfl⟩
abbrev main_v23 : Ref sig .tc := ⟨.hbm, 59, rfl⟩
abbrev main_cst_5 : Ref sig .tc := ⟨.hbm, 60, rfl⟩
abbrev main_v24 : Ref sig .tc := ⟨.hbm, 61, rfl⟩
abbrev main_v25 : Ref sig .tc := ⟨.hbm, 62, rfl⟩
abbrev main_call3_cst : Ref sig .tc := ⟨.hbm, 63, rfl⟩
abbrev main_call3_v0 : Ref sig .tc := ⟨.hbm, 64, rfl⟩
abbrev main_v26 : Ref sig .tc := ⟨.hbm, 65, rfl⟩
abbrev main_cst_6 : Ref sig .tc := ⟨.hbm, 66, rfl⟩
abbrev main_v27 : Ref sig .tc := ⟨.hbm, 67, rfl⟩
abbrev main_cst_7 : Ref sig .tc := ⟨.hbm, 68, rfl⟩
abbrev main_v28 : Ref sig .tc := ⟨.hbm, 69, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S500x512_S500_d1 : S500x512.ReducesTo [1] S500
  bcast_S500_S1x500_1 : S500.BroadcastsInDim S1x500 (![1] : Fin 1 → Fin S1x500.rank)
  bcast_S16384x1_S16384x500_0_1 : S16384x1.BroadcastsInDim S16384x500 (![0, 1] : Fin 2 → Fin S16384x500.rank)
  bcast_S1x500_S16384x500_0_1 : S1x500.BroadcastsInDim S16384x500 (![0, 1] : Fin 2 → Fin S16384x500.rank)
  transposes_S500x512_S512x500_1_0 : S500x512.Transposes [1, 0] S512x500
  bcast_S_S16384x500 : S_.BroadcastsInDim S16384x500 (![] : Fin 0 → Fin S16384x500.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384x500_S16384_d1 : S16384x500.ReducesTo [1] S16384
  bcast_S_S16384 : S_.BroadcastsInDim S16384 (![] : Fin 0 → Fin S16384.rank)
  reducesTo_S16384_S_d0 : S16384.ReducesTo [0] S_
  dot_S16384x512_S512x500_S16384x500_1_0_0_1_n_n_wf : DotDims.WF S16384x512 S512x500 S16384x500 [1] [0] [0] [1] [] []
  gather_S16384x500_S16384x1x1_S16384x1_n_1_0_0_1_2_11_wf : GatherDims.WF S16384x500 S16384x1x1 S16384x1 [] [1] [0] [1] [0] 2 ![1, 1]

variable [Facts₀]

def dot_S16384x512_S512x500_S16384x500_1_0_0_1_n_n : DotDims S16384x512 S512x500 S16384x500 where
  lhsContracting := [1]
  rhsContracting := [0]
  lhsNonContracting := [0]
  rhsNonContracting := [1]
  lhsBatch := []
  rhsBatch := []
  wf := dot_S16384x512_S512x500_S16384x500_1_0_0_1_n_n_wf
def gather_S16384x500_S16384x1x1_S16384x1_n_1_0_0_1_2_11 : GatherDims S16384x500 S16384x1x1 S16384x1 where
  offsetDims := []
  collapsedSliceDims := [1]
  operandBatchingDims := [0]
  startIndicesBatchingDims := [0]
  startIndexMap := [1]
  indexVectorDim := 2
  sliceSizes := ![1, 1]
  wf := gather_S16384x500_S16384x1x1_S16384x1_n_1_0_0_1_2_11_wf

class Facts : Prop extends Facts₀ where

variable [Facts]
-- ==== Proof.KPieces.lean ====
/-
  What each control case of the body leaves behind, as values of the blocks it loaded. The body has three cases by the
  position of the grid point inside its group of four: at the first point it resets the accumulator to zero and adds the
  tile's sum of hinges; at the two middle points it adds the tile's sum to what the accumulator held; at the last point it
  does the same and writes the accumulator out. Each case's stores cover the buffer they go to, so reading the buffer
  back gives the last store's value: the update of the accumulator, and at the last point the write-out of that update.
-/
import proofs.«423197_j25778393710638_2_alg».proof.Proof.Gen.KernelIdeal.Frame
import Idealize.ShloMosaic.Lib.Pipeline.Value
import Idealize.ShloMosaic.Lib.Tactic

noncomputable section

namespace Cert.KernelIdeal.KPieces

open Idealize.ShloMosaic Idealize.ShloMosaic.TcCoe Idealize.SL.Sem Cert.KernelIdeal Cert.KernelIdeal.Gen

variable {F : FTy → Type} [FloatOps F] [Named F]

/-- The zero offsets of a whole-buffer access, of rank two and of rank three. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator's update from the tile's blocks: what it held plus the tile's sum of hinges. -/
abbrev upd (x0 : Vec F S2048x512 .f32) (x1 : Vec F S512x500 .bf16) (x2 : Vec F S1x500 .f32) (x3 : Vec F S2048x1 .i32) (acc : Vec F S1x1 .f32) : Vec F S1x1 .f32 :=
  k0_pay1 (k0_pay6 x0 x1 x2 x3) (k0_pay7 x0 x1 x2 x3) acc

/-- A middle point leaves the accumulator at its update. -/
theorem sout_B (c : Dev nD) (i : grid0.Coords) (a2 : Memref sig .tc .vmem S2048x512 .f32) (h2 : a2.IsWhole) (a3 : Memref sig .tc .vmem S512x500 .bf16) (h3 : a3.IsWhole) (a4 : Memref sig .tc .vmem S1x500 .f32) (h4 : a4.IsWhole) (a5 : Memref sig .tc .vmem S2048x1 .i32) (h5 : a5.IsWhole) (a6 : Memref sig .tc .vmem S1x1x1 .f32) (h6 : a6.IsWhole) (a7 : Memref sig .tc .vmem S1x1 .f32) (h7 : a7.IsWhole) (hc0 : ¬cond0_0 i) (hc1 : ¬cond0_1 i) (x0 : Vec F S2048x512 .f32) (x1 : Vec F S512x500 .bf16) (x2 : Vec F S1x500 .f32) (x3 : Vec F S2048x1 .i32) (xs0 : Vec F S1x1 .f32) :
    sout0_B_0 c i a2 h2 a3 h3 a4 h4 a5 h5 a6 h6 a7 h7 hc0 hc1 x0 x1 x2 x3 xs0 = upd x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz2]
  simp only [View.readAt_eq_ld, h2.read_unread, h3.read_unread, h4.read_unread, h5.read_unread, h7.read_unread, View.ld_unit_zero (S := S2048x512) hz2, View.ld_unit_zero (S := S512x500) hz2, View.ld_unit_zero (S := S1x500) hz2, View.ld_unit_zero (S := S2048x1) hz2, View.ld_unit_zero (S := S1x1) hz2]

/-- The first point of a group leaves the accumulator at the update of zero: the reset is read back by the update. -/
theorem sout_A (c : Dev nD) (i : grid0.Coords) (a2 : Memref sig .tc .vmem S2048x512 .f32) (h2 : a2.IsWhole) (a3 : Memref sig .tc .vmem S512x500 .bf16) (h3 : a3.IsWhole) (a4 : Memref sig .tc .vmem S1x500 .f32) (h4 : a4.IsWhole) (a5 : Memref sig .tc .vmem S2048x1 .i32) (h5 : a5.IsWhole) (a6 : Memref sig .tc .vmem S1x1x1 .f32) (h6 : a6.IsWhole) (a7 : Memref sig .tc .vmem S1x1 .f32) (h7 : a7.IsWhole) (hc0 : cond0_0 i) (hc1 : ¬cond0_1 i) (x0 : Vec F S2048x512 .f32) (x1 : Vec F S512x500 .bf16) (x2 : Vec F S1x500 .f32) (x3 : Vec F S2048x1 .i32) :
    sout0_A_0 c i a2 h2 a3 h3 a4 h4 a5 h5 a6 h6 a7 h7 hc0 hc1 x0 x1 x2 x3 = upd x0 x1 x2 x3 (k0_pay3 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h7.read_unread, View.ld_unit_zero (S := S2048x512) hz2, View.ld_unit_zero (S := S512x500) hz2, View.ld_unit_zero (S := S1x500) hz2, View.ld_unit_zero (S := S2048x1) hz2, View.ld_unit_zero (S := S1x1) hz2]

/-- The last point of a group leaves the accumulator at its update, -/
theorem sout_C (c : Dev nD) (i : grid0.Coords) (a2 : Memref sig .tc .vmem S2048x512 .f32) (h2 : a2.IsWhole) (a3 : Memref sig .tc .vmem S512x500 .bf16) (h3 : a3.IsWhole) (a4 : Memref sig .tc .vmem S1x500 .f32) (h4 : a4.IsWhole) (a5 : Memref sig .tc .vmem S2048x1 .i32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S2048x512 .f32) (x1 : Vec F S512x500 .bf16) (x2 : Vec F S1x500 .f32) (x3 : Vec F S2048x1 .i32) (xs0 : Vec F S1x1 .f32) :
    sout0_C_0 c i a2 h2 a3 h3 a4 h4 a5 h5 a6 h6 a7 h7 hc0 hc1 x0 x1 x2 x3 xs0 = upd x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread, View.ld_unit_zero (S := S2048x512) hz2, View.ld_unit_zero (S := S512x500) hz2, View.ld_unit_zero (S := S1x500) hz2, View.ld_unit_zero (S := S2048x1) hz2, View.ld_unit_zero (S := S1x1) hz2]

/-- and the output's buffer at the write-out of that update. -/
theorem out_C (c : Dev nD) (i : grid0.Coords) (a2 : Memref sig .tc .vmem S2048x512 .f32) (h2 : a2.IsWhole) (a3 : Memref sig .tc .vmem S512x500 .bf16) (h3 : a3.IsWhole) (a4 : Memref sig .tc .vmem S1x500 .f32) (h4 : a4.IsWhole) (a5 : Memref sig .tc .vmem S2048x1 .i32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S2048x512 .f32) (x1 : Vec F S512x500 .bf16) (x2 : Vec F S1x500 .f32) (x3 : Vec F S2048x1 .i32) (xs0 : Vec F S1x1 .f32) :
    out0_C_4 c i a2 h2 a3 h3 a4 h4 a5 h5 a6 h6 a7 h7 hc0 hc1 x0 x1 x2 x3 xs0 = k0_pay2 (upd x0 x1 x2 x3 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3]
  simp only [View.readAt_eq_ld, h2.read_unread, h3.read_unread, h4.read_unread, h5.read_unread, h7.read_unread, View.ld_unit_zero (S := S2048x512) hz2, View.ld_unit_zero (S := S512x500) hz2, View.ld_unit_zero (S := S1x500) hz2, View.ld_unit_zero (S := S2048x1) hz2, View.ld_unit_zero (S := S1x1) hz2, View.readCov_unit_zero (S := S1x1) _ hz2]

end Cert.KernelIdeal.KPieces

end
-- ==== Proof.Spec.lean ====
/-
  The contrastive loss as ONE function of the argument arrays, and the laws that join its two arrangements.

  For features X : [16384, 512], prototypes P : [500, 512] and a class lab b < 500 per row b:
    sq b c   = (sum_k X(b,k)^2 + sum_k P(c,k)^2) - 2 * sum_k X(b,k) * P(c,k)      the squared distance, expanded
    g x      = sqrt (max x eps)                                                    the guarded root
    row b    = max (g (sq b (lab b)) - min over c /= lab b of g (sq b c) + 1) 0    the hinge of row b
    loss     = (sum_b row b) / 16384.
  One side selects the positive entry by a one-hot sum and takes the root AFTER the minimum; the other gathers the
  entry and takes the root BEFORE the minimum. They agree on the extended reals because a sum over a one-hot mask is
  its one term, and because g is monotone with g top = top, so it passes through a minimum over a finite set that
  starts from top. Neither law needs a finite argument.
-/
import Idealize.ShloMosaic.PureOps.Ideal
import Idealize.ShloMosaic.PureOps.Ideal.Laws
import Idealize.ShloMosaic.Lib.ValueIdx

noncomputable section

namespace Cert.Contrast

open Idealize.ShloMosaic Idealize.ShloMosaic.ValueIdx

/-- The shapes of the three arguments. -/
abbrev SX : Shape := ⟨2, ![16384, 512]⟩
abbrev SP : Shape := ⟨2, ![500, 512]⟩
abbrev SLab : Shape := ⟨1, ![16384]⟩

/-- The four float literals both programs carry, as the extended reals their words denote. -/
abbrev two : EReal := Ideal.ofBits .f32 0x40000000#32
abbrev eps : EReal := Ideal.ofBits .f32 0x2B8CBCCC#32
abbrev one : EReal := Ideal.ofBits .f32 0x3F800000#32
abbrev nB : EReal := Ideal.ofBits .f32 0x46800000#32

variable (X : SX.Idx → EReal) (P : SP.Idx → EReal)

/-- The squared norm of feature row b. -/
def f2 (b : Fin 16384) : EReal := ∑ k : Fin 512, X (ix2 b k) * X (ix2 b k)
/-- The squared norm of prototype c. -/
def p2 (c : Fin 500) : EReal := ∑ k : Fin 512, P (ix2 c k) * P (ix2 c k)
/-- The inner product of feature row b and prototype c. -/
def dot (b : Fin 16384) (c : Fin 500) : EReal := ∑ k : Fin 512, X (ix2 b k) * P (ix2 c k)
/-- The squared distance in its expanded form. -/
def sq (b : Fin 16384) (c : Fin 500) : EReal := (f2 X b + p2 P c) - two * dot X P b c

/-- The guarded root: the root of the larger of x and eps. -/
def g (x : EReal) : EReal := Ideal.sqrt (max x eps)

/-- The distance to the nearest prototype of another class: the minimum, from top, of the guarded roots with the
    row's own class masked to top. -/
def dneg (l : Fin 500) (b : Fin 16384) : EReal :=
  (Finset.univ : Finset (Fin 500)).fold min ⊤ (fun c => if c = l then ⊤ else g (sq X P b c))

/-- The hinge of row b whose class is l. -/
def row (l : Fin 500) (b : Fin 16384) : EReal := max ((g (sq X P b l) - dneg X P l b) + one) 0

/-- The loss: the mean hinge. -/
def loss (lab : Fin 16384 → Fin 500) : EReal := Ideal.div (∑ b : Fin 16384, row X P (lab b) b) nB

/-! ## The laws -/

/-- The root is monotone on the extended reals (bottom below 0, the real root on [0, oo), top at top). -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => simp
    | coe s =>
      have hrs : r ≤ s := EReal.coe_le_coe_iff.mp hxy
      simp only [Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- So is the guarded root, -/
theorem g_mono : Monotone g := fun _ _ h => sqrt_mono (max_le_max h le_rfl)

/-- and it fixes top. -/
theorem g_top : g ⊤ = ⊤ := by
  unfold g
  rw [max_eq_left le_top, Ideal.sqrt_top]

/-- A monotone map that fixes top passes through a minimum taken from top over a finite set. -/
theorem fold_min_map {ι : Type} [DecidableEq ι] (h : EReal → EReal) (hm : Monotone h) (ht : h ⊤ = ⊤) (s : Finset ι)
    (f : ι → EReal) : h (s.fold min ⊤ f) = s.fold min ⊤ (fun i => h (f i)) := by
  induction s using Finset.induction_on with
  | empty => simpa using ht
  | insert a s ha ih => rw [Finset.fold_insert ha, Finset.fold_insert ha, hm.map_min, ih]

/-- The root AFTER the masked minimum of the squared distances is the masked minimum of the roots. -/
theorem g_fold_min (l : Fin 500) (b : Fin 16384) :
    g ((Finset.univ : Finset (Fin 500)).fold min ⊤ (fun c => if c = l then ⊤ else sq X P b c)) = dneg X P l b := by
  unfold dneg
  rw [fold_min_map g g_mono g_top]
  congr 1
  funext c
  split
  · exact g_top
  · rfl

/-- A sum over a one-hot mask is its one term. -/
theorem sum_onehot (l : Fin 500) (f : Fin 500 → EReal) : (∑ c : Fin 500, if c = l then f c else 0) = f l := by
  rw [Finset.sum_ite_eq' Finset.univ l f, if_pos (Finset.mem_univ l)]

/-- The hinge in the arrangement that selects by a one-hot sum and takes the root after the minimum. -/
theorem row_onehot (l : Fin 500) (b : Fin 16384) :
    max ((g (∑ c : Fin 500, if c = l then sq X P b c else 0)
        - g ((Finset.univ : Finset (Fin 500)).fold min ⊤ (fun c => if c = l then ⊤ else sq X P b c))) + one) 0
      = row X P l b := by
  rw [sum_onehot, g_fold_min]
  rfl

/-- The batch splits into eight tiles of 2048 rows: row r of tile t is row 2048 t + r of the batch. -/
def tileRow (t : Fin 8) (r : Fin 2048) : Fin 16384 := ⟨2048 * t.val + r.val, by have := t.isLt; have := r.isLt; omega⟩

/-- A sum over the batch is the sum over the tiles of the sums over their rows. -/
theorem sum_tiles (f : Fin 16384 → EReal) : ∑ b : Fin 16384, f b = ∑ t : Fin 8, ∑ r : Fin 2048, f (tileRow t r) := by
  have h : 8 * 2048 = 16384 := by norm_num
  rw [← Equiv.sum_comp ((finProdFinEquiv (m := 8) (n := 2048)).trans (finCongr h)) f, Fintype.sum_prod_type]
  refine Finset.sum_congr rfl fun t _ => Finset.sum_congr rfl fun r _ => congrArg f (Fin.ext ?_)
  simp only [Equiv.trans_apply, finCongr_apply, Fin.coe_cast, finProdFinEquiv_apply_val, tileRow]
  omega

end Cert.Contrast

end
-- ==== Proof.KPaySq.lean ====
/-
  The first half of the kernel body's arithmetic read at an index, at the ideal instance: the tile's squared distances
  (a row sum of squares, a broadcast row of prototype norms, a matrix product into a zero accumulator) and its one-hot
  mask. A tile is 2048 feature rows x0, the transposed prototypes x1, their squared norms x2 and the rows' classes x3.
-/
import proofs.«423197_j25778393710638_2_alg».proof.Proof.Gen.KernelIdeal.Skeleton
import proofs.«423197_j25778393710638_2_alg».proof.Proof.Spec
import Idealize.ShloMosaic.PureOps.IdealRules
import Idealize.ShloMosaic.PureOps.Ideal.Laws
import Idealize.ShloMosaic.Lib.ValueIdx
import Idealize.ShloMosaic.Lib.Pipeline.Value

noncomputable section

namespace Cert.KernelIdeal.KPay

open Idealize.ShloMosaic Idealize.ShloMosaic.ValueIdx Cert.KernelIdeal Cert.KernelIdeal.Gen Cert.Contrast

/-- The squared distance of row r of the tile to prototype c, from the tile's blocks: the row's squared norm plus the
    prototype's (read from x2) minus twice their inner product (x1 holds the prototypes transposed). -/
def sqB (x0 : Vec Ideal S2048x512 .f32) (x1 : Vec Ideal S512x500 .bf16) (x2 : Vec Ideal S1x500 .f32) (r : Fin 2048) (c : Fin 500) : EReal :=
  ((∑ k : Fin 512, x0 (ix2 r k) * x0 (ix2 r k)) + x2 (ix2 0 c)) - two * ∑ k : Fin 512, x0 (ix2 r k) * x1 (ix2 k c)

/-- A lane sum over the 512 columns of a [2048, 512] vector, read at row r: the sum of the row's entries. -/
private theorem rowSum_apply (src : FVec Ideal S2048x512 .f32) (h : S2048x512.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ k : Fin 512, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- A [2048] vector viewed as a [2048, 1] column reads its row. -/
private theorem colCast_apply {α : Type} (v : S2048.Idx → α) (h : S2048.ShapeCasts S2048x1) (r : Fin 2048) :
    shapeCast S2048x1 v h (ix2 r 0) = v (ix1 r) :=
  shapeCast_apply v h (ix2 r 0) (ix1 r) (by
    rw [Shape.rowMajor_val_one, Shape.rowMajor_val_two]
    show r.val = r.val * 1 + 0
    omega)

/-- A [2048, 1] column broadcast along the rows' 500 lanes reads its row's entry. -/
private theorem colBcast_apply {α : Type} (v : S2048x1.Idx → α) (h : S2048x1.Broadcasts S2048x500) (r : Fin 2048) (c : Fin 500) :
    broadcastTo S2048x500 v h (ix2 r c) = v (ix2 r 0) :=
  broadcastTo_apply v h (ix2 r c) (ix2 r 0) (fun a => match a with
    | ⟨0, _⟩ => by show r.val = if (2048 : Nat) = 1 then 0 else r.val; rw [if_neg (by decide)]
    | ⟨1, _⟩ => by show 0 = if (1 : Nat) = 1 then 0 else c.val; rw [if_pos rfl])

/-- A [1, 500] row broadcast down the 2048 rows reads its column's entry. -/
private theorem rowBcast_apply {α : Type} (v : S1x500.Idx → α) (h : S1x500.Broadcasts S2048x500) (r : Fin 2048) (c : Fin 500) :
    broadcastTo S2048x500 v h (ix2 r c) = v (ix2 0 c) :=
  broadcastTo_apply v h (ix2 r c) (ix2 0 c) (fun a => match a with
    | ⟨0, _⟩ => by show 0 = if (1 : Nat) = 1 then 0 else r.val; rw [if_pos rfl]
    | ⟨1, _⟩ => by show c.val = if (500 : Nat) = 1 then 0 else c.val; rw [if_neg (by decide)])

/-- The product's left operand index at output (i0, i1) and contraction coordinate q: row i0 ... -/
private theorem lhs_mm_0 (i : S2048x500.Idx) (q : dot_S2048x512_S512x500_S2048x500_1_0_0_1_n_n.contr.Idx) :
    (dot_S2048x512_S512x500_S2048x500_1_0_0_1_n_n.lhsIdx i q 0).val = (i 0).val := by
  unfold DotDims.lhsIdx
  rw [dif_neg (show ¬(0 : Fin S2048x512.rank) ∈ dot_S2048x512_S512x500_S2048x500_1_0_0_1_n_n.lhsBatch by decide), dif_pos (show (0 : Fin S2048x512.rank) ∈ dot_S2048x512_S512x500_S2048x500_1_0_0_1_n_n.lhsNonContracting by decide)]
  rfl
/-- ... and column q; -/
private theorem lhs_mm_1 (i : S2048x500.Idx) (q : dot_S2048x512_S512x500_S2048x500_1_0_0_1_n_n.contr.Idx) :
    (dot_S2048x512_S512x500_S2048x500_1_0_0_1_n_n.lhsIdx i q 1).val = (q ⟨0, by decide⟩).val :=
  dot_S2048x512_S512x500_S2048x500_1_0_0_1_n_n.lhsIdx_val_of_single rfl i q
/-- the right operand's is row q ... -/
private theorem rhs_mm_0 (i : S2048x500.Idx) (q : dot_S2048x512_S512x500_S2048x500_1_0_0_1_n_n.contr.Idx) :
    (dot_S2048x512_S512x500_S2048x500_1_0_0_1_n_n.rhsIdx i q 0).val = (q ⟨0, by decide⟩).val :=
  dot_S2048x512_S512x500_S2048x500_1_0_0_1_n_n.rhsIdx_val_of_single rfl i q
/-- ... and column i1. -/
private theorem rhs_mm_1 (i : S2048x500.Idx) (q : dot_S2048x512_S512x500_S2048x500_1_0_0_1_n_n.contr.Idx) :
    (dot_S2048x512_S512x500_S2048x500_1_0_0_1_n_n.rhsIdx i q 1).val = (i 1).val := by
  unfold DotDims.rhsIdx
  rw [dif_neg (show ¬(1 : Fin S512x500.rank) ∈ dot_S2048x512_S512x500_S2048x500_1_0_0_1_n_n.rhsBatch by decide), dif_pos (show (1 : Fin S512x500.rank) ∈ dot_S2048x512_S512x500_S2048x500_1_0_0_1_n_n.rhsNonContracting by decide)]
  rfl

/-- The matrix product into the zero accumulator, read at (r, c): the inner product of row r of the left operand and
    column c of the right. -/
private theorem mm_apply (lhs : FVec Ideal S2048x512 .bf16) (rhs : FVec Ideal S512x500 .bf16) (r : Fin 2048) (c : Fin 500) :
    matmul dot_S2048x512_S512x500_S2048x500_1_0_0_1_n_n none lhs rhs (constant (F := Ideal) S2048x500 .f32 0x00000000#32) (ix2 r c)
      = ∑ k : Fin 512, lhs (ix2 r k) * rhs (ix2 k c) := by
  simp only [matmul]
  rw [Ideal.matmul_constant_zero_apply, ← Equiv.sum_comp (contrEquiv1 dot_S2048x512_S512x500_S2048x500_1_0_0_1_n_n 512 rfl rfl).symm]
  refine Finset.sum_congr rfl fun k _ => ?_
  have hk := contrEquiv1_symm_val dot_S2048x512_S512x500_S2048x500_1_0_0_1_n_n 512 rfl rfl k
  have el : dot_S2048x512_S512x500_S2048x500_1_0_0_1_n_n.lhsIdx (ix2 r c) ((contrEquiv1 dot_S2048x512_S512x500_S2048x500_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S2048x512_S512x500_S2048x500_1_0_0_1_n_n.rhsIdx (ix2 r c) ((contrEquiv1 dot_S2048x512_S512x500_S2048x500_1_0_0_1_n_n 512 rfl rfl).symm k) = ix2 k c := funext fun a => Fin.ext (by
    match a with
    | ⟨0, _⟩ => exact (rhs_mm_0 _ _).trans hk
    | ⟨1, _⟩ => exact rhs_mm_1 _ _)
  rw [el, er]

/-- The equality comparison of two 32-bit words is the bit 1 exactly when they are equal. -/
private theorem cmpi_eq_word (a b : BitVec 32) : IntOp.cmpi .eq a b = if a = b then 1#1 else 0#1 := by
  unfold IntOp.cmpi
  by_cases h : a = b
  · subst h
    rw [if_pos rfl]
    simp
  · rw [if_neg h]
    have hb : (a == b) = false := by simpa using h
    show BitVec.ofBool (a == b) = 0#1
    rw [hb]
    rfl

/-- The squared distances the body computes. -/
theorem pay4_apply (x0 : Vec Ideal S2048x512 .f32) (x1 : Vec Ideal S512x500 .bf16) (x2 : Vec Ideal S1x500 .f32) (r : Fin 2048) (c : Fin 500) :
    k0_pay4 (F := Ideal) x0 x1 x2 (ix2 r c) = sqB x0 x1 x2 r c := by
  unfold k0_pay4 sqB
  rw [shapeCast_self, shapeCast_self, subf_apply, addf_apply, mulf_apply, broadcast_apply]
  refine congrArg₂ (· - ·) (congrArg₂ (· + ·) ?_ ?_) (congrArg₂ (· * ·) rfl ?_)
  · exact (colBcast_apply _ _ r c).trans ((colCast_apply _ _ r).trans (rowSum_apply _ _ _ _ r))
  · exact rowBcast_apply _ _ r c
  · exact mm_apply _ _ r c

/-- The one-hot mask: column c of row r is set exactly when c, as a 32-bit word, is the row's class. -/
theorem pay5_apply (x3 : Vec Ideal S2048x1 .i32) (r : Fin 2048) (c : Fin 500) :
    k0_pay5 (F := Ideal) x3 (ix2 r c) = if BitVec.ofNat 32 c.val = x3 (ix2 r 0) then 1#1 else 0#1 := by
  unfold k0_pay5
  rw [shapeCast_self]
  show IntOp.cmpi .eq (iota .tc S2048x500 32 [1] iota_S2048x500_d1_w32 (ix2 r c))
      (broadcastTo S2048x500 x3 broadcasts_S2048x1_S2048x500 (ix2 r c)) = _
  rw [iota_single_apply, colBcast_apply, cmpi_eq_word]
end Cert.KernelIdeal.KPay

end
-- ==== Proof.KPay.lean ====
/-
  The second half of the kernel body's arithmetic read at an index, at the ideal instance: the two distances of a row
  (a one-hot sum and a masked minimum over the 500 classes, each under the guarded root), the accumulator's update (the
  sum of the tile's 2048 hinges added to what it held), the write-out and the reset.
-/
import proofs.«423197_j25778393710638_2_alg».proof.Proof.KPaySq
import Idealize.ShloMosaic.Lib.ValueLayout

noncomputable section

namespace Cert.KernelIdeal.KPay

open Idealize.ShloMosaic Idealize.ShloMosaic.ValueIdx Cert.KernelIdeal Cert.KernelIdeal.Gen Cert.Contrast

/-! ## Layout and reduction steps at explicit coordinates -/

/-- A vector cast to a column reads, at row i of the column, its entry i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index over row r of a matrix with column k put back is (r, k). -/
private theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows of a matrix, read at row r: the sum of the row's entries. -/
private theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ c : Fin b, src (ix2 r c) :=
  (Ideal.multiReduction_add_single src _ h hφ hacc (ix1 r)).trans
    (Finset.sum_congr rfl fun c _ => congrArg src (lift_row h r c))

/-- A minimum along the rows of a matrix, read at row r: the fold of min, from the accumulator's value, over the row's
    entries. -/
private theorem rowMin_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction (F := Ideal) .minimumf [1] ⟨1, ![a]⟩ src acc h hφ hacc (ix1 r)
      = (Finset.univ : Finset (Fin b)).fold min (Ideal.ofBits .f32 acc) (fun c => src (ix2 r c)) := by
  rw [multiReduction_minimumf_eq_fold]
  refine (h.fold_filter_drop_single _ _ src (ix1 r)).trans ?_
  exact congrArg (fun f => Finset.fold min (Ideal.ofBits .f32 acc) f (Finset.univ : Finset (Fin b)))
    (funext fun c => congrArg src (lift_row h r c))

/-- The indices of a [1, n, 1] array are its n middle coordinates. -/
private def midEquiv (n : ℕ) : (⟨3, ![1, n, 1]⟩ : Shape).Idx ≃ Fin n where
  toFun i := i 1
  invFun r := ix3 (0 : Fin 1) r (0 : Fin 1)
  left_inv i := by
    funext a
    match a with
    | ⟨0, _⟩ => exact Subsingleton.elim (α := Fin 1) _ _
    | ⟨1, _⟩ => rfl
    | ⟨2, _⟩ => exact Subsingleton.elim (α := Fin 1) _ _
  right_inv _ := rfl

/-- So a sum over every index of such an array is the sum over the middle coordinate. -/
private theorem sum_mid {n : ℕ} (f : (⟨3, ![1, n, 1]⟩ : Shape).Idx → EReal) :
    ∑ i, f i = ∑ r : Fin n, f (ix3 (0 : Fin 1) r (0 : Fin 1)) :=
  (Equiv.sum_comp (midEquiv n).symm f).symm

/-- The guarded root of a vector cast to a column, read at row i: the guarded root of entry i. -/
private theorem guarded_root_apply {a : ℕ} (v : FVec Ideal ⟨1, ![a]⟩ .f32)
    (h : (⟨1, ![a]⟩ : Shape).ShapeCasts ⟨2, ![a, 1]⟩) (i : Fin a) (u : Fin 1) :
    sqrt (maximumf (shapeCast ⟨2, ![a, 1]⟩ v h)
        (broadcast ⟨2, ![a, 1]⟩ (Scalar.ofBits (F := Ideal) .f32 0x2B8CBCCC#32))) (ix2 i u)
      = g (v (ix1 i)) :=
  congrArg (fun t => Ideal.sqrt (max t eps)) (shapeCast_a_a1_apply v h i u)

/-- A [1, 1] accumulator plus the one entry of a [1] vector, the entry taken through its [1, 1, 1] form: read at its
    one index, the sum of the two entries. -/
private theorem acc_add_apply (acc : FVec Ideal ⟨2, ![1, 1]⟩ .f32) (w : FVec Ideal ⟨1, ![1]⟩ .f32)
    (h1 : (⟨1, ![1]⟩ : Shape).ShapeCasts ⟨3, ![1, 1, 1]⟩)
    (hpos : ∀ a, (![0, 0, 0] : Fin 3 → ℕ) a < (⟨3, ![1, 1, 1]⟩ : Shape).size a)
    (h2 : (⟨2, ![1, 1]⟩ : Shape).ShapeCasts ⟨2, ![1, 1]⟩) :
    shapeCast ⟨2, ![1, 1]⟩
        (addf acc (broadcast ⟨2, ![1, 1]⟩ (extractAt ![0, 0, 0] (shapeCast ⟨3, ![1, 1, 1]⟩ w h1) hpos))) h2 (ix2 0 0)
      = acc (ix2 0 0) + w (ix1 0) := by
  rw [shapeCast_self]
  show acc (ix2 0 0) + shapeCast ⟨3, ![1, 1, 1]⟩ w h1 (fun a => ⟨(![0, 0, 0] : Fin 3 → ℕ) a, hpos a⟩) = _
  refine congrArg (acc (ix2 0 0) + ·) (shapeCast_apply _ _ _ (ix1 0) ?_)
  rw [Shape.rowMajor_val_one, Shape.rowMajor_val_three]
  rfl

/-- The positive distance of row r: the guarded root of the one-hot sum of the squared distances. -/
theorem pay6_apply (x0 : Vec Ideal S2048x512 .f32) (x1 : Vec Ideal S512x500 .bf16) (x2 : Vec Ideal S1x500 .f32) (x3 : Vec Ideal S2048x1 .i32) (r : Fin 2048) :
    k0_pay6 (F := Ideal) x0 x1 x2 x3 (ix2 r 0)
      = g (∑ c : Fin 500, if BitVec.ofNat 32 c.val = x3 (ix2 r 0) then sqB x0 x1 x2 r c else 0) := by
  unfold k0_pay6
  refine (guarded_root_apply _ _ r 0).trans (congrArg g ?_)
  -- the one-hot sum: column c of the selected matrix is the squared distance where the mask is set, else zero
  refine (rowSum_apply _ _ _ _ r).trans (Finset.sum_congr rfl fun c _ => ?_)
  refine (select_apply _ _ _ (ix2 r c)).trans ?_
  rw [pay5_apply, pay4_apply]
  split
  · exact select_one _ _
  · exact (select_zero _ _).trans Ideal.ofBits_zero_f32

/-- The negative distance of row r: the guarded root of the minimum, from top, of the squared distances with the row's
    own class masked to top (the named fill is top at the ideal instance). -/
theorem pay7_apply (x0 : Vec Ideal S2048x512 .f32) (x1 : Vec Ideal S512x500 .bf16) (x2 : Vec Ideal S1x500 .f32) (x3 : Vec Ideal S2048x1 .i32) (r : Fin 2048) :
    k0_pay7 (F := Ideal) x0 x1 x2 x3 (ix2 r 0)
      = g ((Finset.univ : Finset (Fin 500)).fold min ⊤ (fun c => if BitVec.ofNat 32 c.val = x3 (ix2 r 0) then ⊤ else sqB x0 x1 x2 r c)) := by
  -- the named fill is top by the table of named constants, and the minimum starts from the infinity word, which is top
  have hfill : Named.named (F := Ideal) κ "pos_big" (φ := .f32) 0x7149F2CA#32 = ⊤ :=
    IdealRules.named_const.ideal_named_scalar _ _ _ _ rfl
  have htop : Ideal.ofBits .f32 0x7F800000#32 = ⊤ := by simp [Ideal.ofBits, Ideal.ieee]
  unfold k0_pay7
  refine (guarded_root_apply _ _ r 0).trans (congrArg g ?_)
  -- the masked minimum: column c of the selected matrix is top where the mask is set, else the squared distance
  refine (rowMin_apply _ _ _ _ _ r).trans ?_
  rw [htop]
  refine congrArg (fun f => Finset.fold min ⊤ f (Finset.univ : Finset (Fin 500))) (funext fun c => ?_)
  refine (select_apply _ _ _ (ix2 r c)).trans ?_
  rw [pay5_apply, pay4_apply]
  split
  · exact (select_one _ _).trans hfill
  · exact select_zero _ _

/-- The accumulator's update: what it held plus the sum of the tile's 2048 hinges. -/
theorem pay1_apply (v34 v37 : FVec Ideal S2048x1 .f32) (v47 : Vec Ideal S1x1 .f32) :
    k0_pay1 (F := Ideal) v34 v37 v47 (ix2 0 0)
      = v47 (ix2 0 0) + ∑ r : Fin 2048, max ((v34 (ix2 r 0) - v37 (ix2 r 0)) + one) 0 := by
  unfold k0_pay1
  refine (acc_add_apply _ _ _ _ _).trans (congrArg (v47 (ix2 0 0) + ·) ?_)
  -- the total of the hinge column: every index of the [1, 2048, 1] array is (0, r, 0), which reads row r of the column
  refine (Ideal.multiReduction_add_total _ _ _ (fun b => match b with | ⟨0, _⟩ => rfl) _ _ (ix1 0)).trans ?_
  refine (sum_mid _).trans (Finset.sum_congr rfl fun r _ => ?_)
  refine (shapeCast_ab_1ab_apply _ _ 0 r 0).trans ?_
  show max ((v34 (ix2 r 0) - v37 (ix2 r 0)) + Ideal.ofBits .f32 0x3F800000#32) (Ideal.ofBits .f32 0x00000000#32) = _
  rw [Ideal.ofBits_zero_f32]

/-- The write-out is the accumulator's one entry. -/
theorem pay2_apply (v56 : Vec Ideal S1x1 .f32) : k0_pay2 (F := Ideal) v56 (ix3 0 0 0) = v56 (ix2 0 0) := by
  exact shapeCast_ab_1ab_apply v56 _ 0 0 0

/-- The reset stores zero. -/
theorem pay3_apply : k0_pay3 (F := Ideal) (ix2 0 0) = 0 := by
  have e : k0_pay3 (F := Ideal) = broadcast S1x1 (Scalar.ofBits (F := Ideal) .f32 0x00000000#32) := shapeCast_self _ _
  rw [e]
  exact Ideal.ofBits_zero_f32

end Cert.KernelIdeal.KPay

end
-- ==== Proof.KChain.lean ====
/-
  The accumulation across the grid, at the ideal instance. The eight grid points run in order; point t adds the sum of
  tile t's 2048 hinges to an accumulator that the first point of each group of four resets to zero, and the last point
  of each group writes the accumulator out. So after point n the accumulator holds the sum of the tile sums of its group
  up to n (by induction on the point), and the result array's entry p is the sum of the four tile sums of group p.
-/
import proofs.«423197_j25778393710638_2_alg».proof.Proof.KPieces
import proofs.«423197_j25778393710638_2_alg».proof.Proof.KPay

noncomputable section

namespace Cert.KernelIdeal.KChain

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KPieces Cert.KernelIdeal.KPay Cert.Contrast

variable (m : (ℓ : Loc nD τ sig) → Buf (Elt Ideal) ℓ)

/-- The four input blocks of grid point t, at their literal types. -/
abbrev B0 (c : Dev nD) (t : Fin cfg0.N) : Vec Ideal S2048x512 .f32 := iblk m c 0 t
abbrev B1 (c : Dev nD) (t : Fin cfg0.N) : Vec Ideal S512x500 .bf16 := iblk m c 1 t
abbrev B2 (c : Dev nD) (t : Fin cfg0.N) : Vec Ideal S1x500 .f32 := iblk m c 2 t
abbrev B3 (c : Dev nD) (t : Fin cfg0.N) : Vec Ideal S2048x1 .i32 := iblk m c 3 t

/-- The sum of tile t's hinges, as the body computes it from the point's blocks. -/
def part (c : Dev nD) (t : Fin cfg0.N) : EReal :=
  ∑ r : Fin 2048, max ((k0_pay6 (F := Ideal) (B0 m c t) (B1 m c t) (B2 m c t) (B3 m c t) (ix2 r 0) - k0_pay7 (F := Ideal) (B0 m c t) (B1 m c t) (B2 m c t) (B3 m c t) (ix2 r 0)) + one) 0

/-- The accumulator's update at point t adds the tile's sum. -/
theorem upd_apply (c : Dev nD) (t : Fin cfg0.N) (acc : Vec Ideal S1x1 .f32) :
    upd (F := Ideal) (B0 m c t) (B1 m c t) (B2 m c t) (B3 m c t) acc (ix2 0 0) = acc (ix2 0 0) + part m c t :=
  pay1_apply _ _ acc

/-- The accumulator after point n: the tile's sum added to zero at the first point of a group, to what the point before
    left otherwise. -/
def accAt (c : Dev nD) : (n : ℕ) → n < cfg0.N → EReal
  | 0, h => 0 + part m c ⟨0, h⟩
  | n + 1, h => (if (n + 1) % 4 = 0 then 0 else accAt c n (Nat.lt_of_succ_lt h)) + part m c ⟨n + 1, h⟩

/-- At the first point of a group the accumulator ends at zero plus the tile's sum. -/
theorem scr_first (c : Dev nD) (t : Fin cfg0.N) (h0 : t.val % 4 = 0) (h1 : ¬t.val % 4 = 3) :
    (outsAt0 m c t.val t.isLt).2 (ix2 0 0) = 0 + part m c t := by
  rw [outsAt0_A m c t h0 h1]
  dsimp only
  rw [sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)]
  refine (upd_apply m c t (k0_pay3 (F := Ideal))).trans ?_
  rw [pay3_apply]

/-- At any other point it ends at what the point before left plus the tile's sum. -/
theorem scr_next (c : Dev nD) (t : Fin cfg0.N) (h0 : ¬t.val % 4 = 0) :
    (outsAt0 m c t.val t.isLt).2 (ix2 0 0)
      = (outsAt0 m c (t.val - 1) (Nat.lt_of_le_of_lt (Nat.sub_le _ _) t.isLt)).2 (ix2 0 0) + part m c t := by
  by_cases h1 : t.val % 4 = 3
  · rw [outsAt0_C m c t h0 h1]
    dsimp only
    rw [sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)]
    exact upd_apply m c t _
  · rw [outsAt0_B m c t h0 h1]
    dsimp only
    rw [sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)]
    exact upd_apply m c t _

/-- So the accumulator after point n is the running sum of its group. -/
theorem scratch_eq (c : Dev nD) : ∀ (n : ℕ) (h : n < cfg0.N), (outsAt0 m c n h).2 (ix2 0 0) = accAt m c n h
  | 0, h => scr_first m c ⟨0, h⟩ rfl (by show ¬0 % 4 = 3; decide)
  | n + 1, h => by
    by_cases h0 : (n + 1) % 4 = 0
    · have h1 : ¬(n + 1) % 4 = 3 := by omega
      rw [scr_first m c ⟨n + 1, h⟩ h0 h1, accAt, if_pos h0]
    · rw [scr_next m c ⟨n + 1, h⟩ h0, accAt, if_neg h0]
      show (outsAt0 m c n _).2 (ix2 0 0) + _ = _
      rw [scratch_eq c n]

/-- At the last point of a group the output's buffer holds the accumulator's entry. -/
theorem out_last (c : Dev nD) (t : Fin cfg0.N) (h0 : ¬t.val % 4 = 0) (h1 : t.val % 4 = 3) :
    (outsAt0 m c t.val t.isLt).1 (ix3 0 0 0) = accAt m c t.val t.isLt := by
  rw [← scratch_eq m c t.val t.isLt, outsAt0_C m c t h0 h1]
  dsimp only
  rw [out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t),
    sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)]
  exact pay2_apply _

end Cert.KernelIdeal.KChain

end
-- ==== Proof.KOut.lean ====
/-
  The result array after the launch. The output window has one entry per group of four points and is written back at the
  last point of each group (points 3 and 7), where its buffer holds the accumulator; the two write-backs cover the array,
  so entry p of the result array is the accumulator after point 4 p + 3: the sum of group p's four tile sums.
-/
import proofs.«423197_j25778393710638_2_alg».proof.Proof.KChain

noncomputable section

namespace Cert.KernelIdeal.KOut

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KChain Cert.Contrast

variable (m : (ℓ : Loc nD τ sig) → Buf (Elt Ideal) ℓ)

/-- The accumulator's value does not depend on how the point's number is written. -/
theorem accAt_congr (c : Dev nD) {n n' : ℕ} (e : n = n') (h : n < cfg0.N) (h' : n' < cfg0.N) :
    accAt m c n h = accAt m c n' h' := by
  subst e; rfl

/-- The output's block index at point t: its group on the first axis, zero on the two unit axes. -/
theorem idx_out : ∀ t : Fin cfg0.N, win0_4.index t (0 : Fin 3) = t.val / 4 ∧ win0_4.index t (1 : Fin 3) = 0
    ∧ win0_4.index t (2 : Fin 3) = 0 :=
  (by decide +kernel : ∀ t : Fin grid0.N, _)

/-- The result array: entry p holds the accumulator after the last point of group p. -/
def outArr (c : Dev nD) : S2x1x1.Idx → EReal := fun i =>
  accAt m c (4 * (i 0).val + 3) (by have h : (i 0).val < 2 := (i 0).isLt; have hN : cfg0.N = 8 := N_0; omega)

/-- What a write-back writes is its block of the result array. -/
theorem flushed_eq (c : Dev nD) (t : Fin cfg0.N) (hf : (cfg0.win 4).flush t = true) :
    (dats m 0 c).flushed 4 t = ((cfg0.win 4).blk t).view.read (Elt Ideal) (outArr m c) := by
  have h3 : t.val % 4 = 3 := (flush0_4 t).mp hf
  have h0 : ¬t.val % 4 = 0 := by omega
  obtain ⟨e0, e1, e2⟩ := idx_out t
  show (cfg0.win 4).cut (grid0.coords t) ((dats m 0 c).after 4 t) = _
  rw [after0_4]
  funext j
  show (outsAt0 m c t.val t.isLt).1 j = outArr m c (((cfg0.win 4).blk t).view.emb j)
  have hj0 : (j 0).val < 1 := (j 0).isLt
  have hj1 : (j 1).val < 1 := (j 1).isLt
  have hj2 : (j 2).val < 1 := (j 2).isLt
  have hj : j = ix3 0 0 0 := by
    funext a
    match a with
    | ⟨0, _⟩ => exact Fin.ext (by show (j 0).val = 0; omega)
    | ⟨1, _⟩ => exact Fin.ext (by show (j 1).val = 0; omega)
    | ⟨2, _⟩ => exact Fin.ext (by show (j 2).val = 0; omega)
  rw [hj, out_last m c t h0 h3]
  unfold outArr
  refine accAt_congr m c ?_ _ _
  show t.val = 4 * (win0_4.index t (0 : Fin 3) * 1 + 1 * 0) + 3
  omega

/-- An index of the result array is in point t's block iff each coordinate is in the block's range on its axis. -/
theorem mem_blk (t : Fin cfg0.N) (i : S2x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v7).slice (win0_4.rect t)).set ↔ _
  rw [View.set_slice_whole, Rect.mem_set_unit]
  exact Iff.rfl

/-- The two write-backs cover the result array, so it ends holding the accumulators of the two groups. -/
theorem final_out (c : Dev nD) : (dats m 0 c).arrAt 4 cfg0.N = outArr m c :=
  (dats m 0 c).arrAt_eq_of_cover 4 (outArr m c) (flushed_eq m c) fun i => by
    have hi0 : (i 0).val < 2 := (i 0).isLt
    have hi1 : (i 1).val < 1 := (i 1).isLt
    have hi2 : (i 2).val < 1 := (i 2).isLt
    have hN : cfg0.N = 8 := N_0
    let t : Fin cfg0.N := ⟨4 * (i 0).val + 3, by omega⟩
    have ht : t.val = 4 * (i 0).val + 3 := rfl
    obtain ⟨e0, e1, e2⟩ := idx_out t
    refine ⟨t, (flush0_4 t).mpr (by omega), ?_⟩
    rw [mem_blk]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 1 ≤ (i 1).val ∧ (i 1).val < win0_4.index t (1 : Fin 3) * 1 + 1; omega
    | ⟨2, _⟩ => show win0_4.index t (2 : Fin 3) * 1 ≤ (i 2).val ∧ (i 2).val < win0_4.index t (2 : Fin 3) * 1 + 1; omega

end Cert.KernelIdeal.KOut

end
-- ==== Proof.KIn.lean ====
/-
  What the body's loads see: the block of each input window at a grid point, read at an index from the argument arrays.
  Grid point t (of 8, in launch order) works on tile t: rows 2048 t .. 2048 t + 2047 of the features and of the classes.
  The prototypes reach the body transposed (entry (k, c) is P(c, k)), and their squared norms as a row computed before
  the launch (entry (0, c) is the sum over k of P(c, k) squared).
-/
import proofs.«423197_j25778393710638_2_alg».proof.Proof.Gen.KernelIdeal.Frame
import proofs.«423197_j25778393710638_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KIn

open Idealize.ShloMosaic Idealize.ShloMosaic.TcCoe Idealize.ShloMosaic.ValueIdx Idealize.SL.Sem
open Cert.KernelIdeal Cert.KernelIdeal.Gen Cert.Contrast

variable (m : (ℓ : Loc nD τ sig) → Buf (Elt Ideal) ℓ)

/-- The tile a grid point works on: its position in launch order. -/
abbrev tile (t : Fin cfg0.N) : Fin 8 := Fin.cast (show cfg0.N = 8 from N_0) t

/-! ## Where each window's block sits at a grid point

The printed index maps, decided once over the eight points: the two tiled windows sit at block row t (the point's
position in launch order), the two whole-array windows at the origin. -/

private theorem idx0 : ∀ t : Fin grid0.N, win0_0.index t (0 : Fin 2) = t.val ∧ win0_0.index t (1 : Fin 2) = 0 := by decide +kernel
private theorem idx1 : ∀ t : Fin grid0.N, win0_1.index t (0 : Fin 2) = 0 ∧ win0_1.index t (1 : Fin 2) = 0 := by decide +kernel
private theorem idx2 : ∀ t : Fin grid0.N, win0_2.index t (0 : Fin 2) = 0 ∧ win0_2.index t (1 : Fin 2) = 0 := by decide +kernel
private theorem idx3 : ∀ t : Fin grid0.N, win0_3.index t (0 : Fin 2) = t.val ∧ win0_3.index t (1 : Fin 2) = 0 := by decide +kernel

/-! ## The arrays the lines before the launch wrote, as the region finds them -/

/-- The classes as a column: the class argument with a unit axis added. -/
private theorem V_main_v0 (c : Dev nD) :
    (V m c main_v0 : Vec Ideal S16384x1 .i32)
      = shapeCast S16384x1 (m ((c : Thread nD τ).loc main_arg2) : Vec Ideal S16384 .i32) shapeCasts_S16384_S16384x1 := by
  show StableHlo.after hostOps0 (fun b => m (c, b)) (Proc.devRef .tc main_v0) = _
  after_results
  rfl

/-- The prototypes transposed; the narrowing to the short format is the identity on the extended reals. -/
private theorem V_main_v2 (c : Dev nD) :
    (V m c main_v2 : FVec Ideal S512x500 .bf16)
      = truncf (F := Ideal) .bf16 (transpose S512x500 [1, 0] (m ((c : Thread nD τ).loc main_arg1) : FVec Ideal S500x512 .f32) transposes_S500x512_S512x500_1_0) bitsLt_bf16_f32 := by
  show StableHlo.after hostOps0 (fun b => m (c, b)) (Proc.devRef .tc main_v2) = _
  after_results

/-- The prototypes' squared norms, summed along each prototype from zero, laid out as a row. -/
private theorem V_main_v6 (c : Dev nD) :
    (V m c main_v6 : FVec Ideal S1x500 .f32)
      = transpose S1x500 [1, 0]
          (broadcastInDim S500x1 ![0] bcast_S500_S500x1_0
            (Host.reduceAdd (F := Ideal) (mulf (m ((c : Thread nD τ).loc main_arg1) : FVec Ideal S500x512 .f32) (m ((c : Thread nD τ).loc main_arg1)))
              (constant (F := Ideal) S_ .f32 0x00000000#32) reducesTo_S500x512_S500_d1 h_S_))
          transposes_S500x1_S1x500_1_0 := by
  show StableHlo.after hostOps0 (fun b => m (c, b)) (Proc.devRef .tc main_v6) = _
  after_results

/-- Summing along a prototype: the index the sum inserts at position k of prototype cc is (cc, k). -/
private theorem lift_row (h : S500x512.Reduces [1] S500) (cc : Fin 500) (k : Fin 512) :
    h.lift (ix1 cc) k = (ix2 cc k : S500x512.Idx) :=
  funext fun a => Fin.ext (match a with | ⟨0, _⟩ => rfl | ⟨1, _⟩ => rfl)

/-! ## The blocks read at an index

A block's coordinate in its array is the block's index times the block's extent plus the coordinate inside the block. -/

/-- The feature block of point t is tile t of the features. -/
theorem iblk0_apply (c : Dev nD) (t : Fin cfg0.N) (r : Fin 2048) (k : Fin 512) :
    (iblk m c 0 t : Vec Ideal S2048x512 .f32) (ix2 r k)
      = (m ((c : Thread nD τ).loc main_arg0) : Vec Ideal S16384x512 .f32) (ix2 (tileRow (tile t) r) k) := by
  unfold iblk
  rw [View.read_apply]
  show V m c main_arg0 _ = _
  rw [V_main_arg0]
  refine congrArg _ (funext fun a => Fin.ext ?_)
  match a with
  | ⟨0, _⟩ =>
    show win0_0.index t 0 * 2048 + 1 * r.val = 2048 * t.val + r.val
    rw [(idx0 t).1]; omega
  | ⟨1, _⟩ =>
    show win0_0.index t 1 * 512 + 1 * k.val = k.val
    rw [(idx0 t).2]; omega

/-- The prototype block is the whole transposed prototype array, at every point. -/
theorem iblk1_apply (c : Dev nD) (t : Fin cfg0.N) (k : Fin 512) (cc : Fin 500) :
    (iblk m c 1 t : Vec Ideal S512x500 .bf16) (ix2 k cc)
      = (m ((c : Thread nD τ).loc main_arg1) : Vec Ideal S500x512 .f32) (ix2 cc k) := by
  unfold iblk
  rw [View.read_apply]
  show V m c main_v2 _ = _
  rw [V_main_v2]
  show transpose S512x500 [1, 0] (m ((c : Thread nD τ).loc main_arg1) : FVec Ideal S500x512 .f32) transposes_S500x512_S512x500_1_0 _ = _
  refine transpose_apply _ _ _ _ (ix2 cc k) fun b => ?_
  match b with
  | ⟨0, _⟩ =>
    show k.val = win0_1.index t 0 * 512 + 1 * k.val
    rw [(idx1 t).1]; omega
  | ⟨1, _⟩ =>
    show cc.val = win0_1.index t 1 * 500 + 1 * cc.val
    rw [(idx1 t).2]; omega

/-- The norm block is the row of the prototypes' squared norms, at every point. -/
theorem iblk2_apply (c : Dev nD) (t : Fin cfg0.N) (cc : Fin 500) :
    (iblk m c 2 t : Vec Ideal S1x500 .f32) (ix2 0 cc)
      = p2 (m ((c : Thread nD τ).loc main_arg1) : Vec Ideal S500x512 .f32) cc := by
  unfold iblk
  rw [View.read_apply]
  show V m c main_v6 _ = _
  rw [V_main_v6]
  refine (transpose_apply _ _ _ _ (ix2 cc (0 : Fin 1)) fun b => ?_).trans ?_
  · match b with
    | ⟨0, _⟩ =>
      show (0 : Fin 1).val = win0_2.index t 0 * 1 + 1 * (0 : Fin 1).val
      rw [(idx2 t).1]; rfl
    | ⟨1, _⟩ =>
      show cc.val = win0_2.index t 1 * 500 + 1 * cc.val
      rw [(idx2 t).2]; omega
  refine (broadcastInDim_apply _ _ _ _ (ix1 cc) fun a => ?_).trans ?_
  · match a with
    | ⟨0, _⟩ => rfl
  show Ideal.hostReduceAdd reducesTo_S500x512_S500_d1 _ (Ideal.ofBits .f32 0x00000000#32) (ix1 cc) = _
  rw [Ideal.hostReduceAdd_single reducesTo_S500x512_S500_d1 (by decide : S500x512.Reduces [1] S500), Ideal.ofBits_zero_f32, zero_add]
  unfold p2
  refine Finset.sum_congr rfl fun k _ => ?_
  exact congrArg (mulf (F := Ideal) (m ((c : Thread nD τ).loc main_arg1) : FVec Ideal S500x512 .f32) (m ((c : Thread nD τ).loc main_arg1)))
    (lift_row _ cc k)

/-- The class block of point t is tile t of the classes, as a column. -/
theorem iblk3_apply (c : Dev nD) (t : Fin cfg0.N) (r : Fin 2048) :
    (iblk m c 3 t : Vec Ideal S2048x1 .i32) (ix2 r 0)
      = (m ((c : Thread nD τ).loc main_arg2) : Vec Ideal S16384 .i32) (ix1 (tileRow (tile t) r)) := by
  unfold iblk
  rw [View.read_apply]
  show V m c main_v0 _ = _
  rw [V_main_v0]
  refine shapeCast_apply _ _ _ (ix1 (tileRow (tile t) r)) ?_
  rw [Shape.rowMajor_val_one, Shape.rowMajor_val_two]
  show 2048 * t.val + r.val = (win0_3.index t 0 * 2048 + 1 * r.val) * 1 + (win0_3.index t 1 * 1 + 1 * (0 : Fin 1).val)
  rw [(idx3 t).1, (idx3 t).2]
  show 2048 * t.val + r.val = (t.val * 2048 + 1 * r.val) * 1 + (0 * 1 + 1 * 0)
  omega

end Cert.KernelIdeal.KIn

end
-- ==== Proof.KTile.lean ====
/-
  A tile's sum of hinges, as the body computes it from the point's blocks, is the sum of the specification's hinges over
  the tile's rows: the blocks are the tile's rows of the features and classes and the whole of the prototypes, so the
  body's squared distances are the specification's; a class below 500 matches exactly one column of the one-hot mask;
  and a sum over a one-hot mask, and the guarded root after a masked minimum, are the specification's two distances.
-/
import proofs.«423197_j25778393710638_2_alg».proof.Proof.KChain
import proofs.«423197_j25778393710638_2_alg».proof.Proof.KIn

noncomputable section

namespace Cert.KernelIdeal.KTile

open Idealize.ShloMosaic Idealize.ShloMosaic.TcCoe Idealize.ShloMosaic.ValueIdx Idealize.SL.Sem
open Cert.KernelIdeal Cert.KernelIdeal.Gen Cert.KernelIdeal.KChain Cert.KernelIdeal.KPay Cert.KernelIdeal.KIn Cert.Contrast

variable (m : (ℓ : Loc nD τ sig) → Buf (Elt Ideal) ℓ)

/-- The body's squared distances at point t are the specification's, at the tile's rows. -/
theorem sqB_eq (c : Dev nD) (t : Fin cfg0.N) (r : Fin 2048) (cc : Fin 500) :
    sqB (B0 m c t) (B1 m c t) (B2 m c t) r cc = sq (m ((c : Thread nD τ).loc main_arg0) : Vec Ideal S16384x512 .f32) (m ((c : Thread nD τ).loc main_arg1) : Vec Ideal S500x512 .f32) (tileRow (tile t) r) cc := by
  unfold sqB Cert.Contrast.sq f2 dot
  have e0 : ∀ k : Fin 512, B0 m c t (ix2 r k) = (m ((c : Thread nD τ).loc main_arg0) : Vec Ideal S16384x512 .f32) (ix2 (tileRow (tile t) r) k) :=
    fun k => iblk0_apply m c t r k
  have e1 : ∀ k : Fin 512, B1 m c t (ix2 k cc) = (m ((c : Thread nD τ).loc main_arg1) : Vec Ideal S500x512 .f32) (ix2 cc k) := fun k => iblk1_apply m c t k cc
  have e2 : B2 m c t (ix2 0 cc) = p2 (m ((c : Thread nD τ).loc main_arg1) : Vec Ideal S500x512 .f32) cc := iblk2_apply m c t cc
  simp only [e0, e1, e2]

/-- Words of two classes below 500 are equal only if the classes are. -/
theorem ofNat_inj (a b : Fin 500) (h : BitVec.ofNat 32 a.val = BitVec.ofNat 32 b.val) : a = b := by
  have := congrArg BitVec.toNat h
  simp only [BitVec.toNat_ofNat] at this
  have ha := a.isLt
  have hb := b.isLt
  exact Fin.ext (by omega)

/-- The tile's sum of hinges is the sum of the specification's hinges over the tile's rows. -/
theorem part_eq (c : Dev nD) (t : Fin cfg0.N) (lab : Fin 16384 → Fin 500)
    (hlab : ∀ b : Fin 16384, (m ((c : Thread nD τ).loc main_arg2) : Vec Ideal S16384 .i32) (ix1 b) = BitVec.ofNat 32 (lab b).val) :
    part m c t = ∑ r : Fin 2048, row (m ((c : Thread nD τ).loc main_arg0) : Vec Ideal S16384x512 .f32) (m ((c : Thread nD τ).loc main_arg1) : Vec Ideal S500x512 .f32) (lab (tileRow (tile t) r)) (tileRow (tile t) r) := by
  unfold part
  refine Finset.sum_congr rfl fun r _ => ?_
  rw [pay6_apply, pay7_apply]
  have hc : ∀ cc : Fin 500, (BitVec.ofNat 32 cc.val = B3 m c t (ix2 r 0)) ↔ cc = lab (tileRow (tile t) r) := by
    intro cc
    rw [show B3 m c t (ix2 r 0) = BitVec.ofNat 32 (lab (tileRow (tile t) r)).val from (iblk3_apply m c t r).trans (hlab _)]
    exact ⟨ofNat_inj _ _, fun h => by rw [h]⟩
  simp only [hc, sqB_eq m c t r]
  exact row_onehot _ _ _ _

end Cert.KernelIdeal.KTile

end
-- ==== Proof.KRun.lean ====
/-
  The idealized kernel's run, read: the program ends with its result at the loss. After the launch the result array holds
  the two groups' accumulators; the host lines after it add the two from zero and divide by 16384. Group p's accumulator
  is the sum of its four tile sums, each the sum of the specification's hinges over the tile's rows, and the eight tiles
  partition the batch, so the total is the sum of all 16384 hinges.
-/
import proofs.«423197_j25778393710638_2_alg».proof.Proof.KOut
import proofs.«423197_j25778393710638_2_alg».proof.Proof.KTile
import Idealize.ShloMosaic.Lib.StableHlo.Run

noncomputable section

namespace Cert.KernelIdeal.KRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KChain Cert.KernelIdeal.KOut Cert.KernelIdeal.KTile Cert.KernelIdeal.KIn Cert.Contrast

variable (m : (ℓ : Loc nD τ sig) → Buf (Elt Ideal) ℓ) (ρ : Dev nD → PrngReg)

/-- The host lines after the launch, applied to the result array. -/
def tailOf (a : S2x1x1.Idx → EReal) : S_.Idx → EReal :=
  Host.divf (F := Ideal) (Host.reduceAdd (F := Ideal) a (constant (F := Ideal) S_ .f32 0x00000000#32) reducesTo_S2x1x1_S_d0_1_2 h_S_)
    (constant (F := Ideal) S_ .f32 0x46800000#32)

/-- The program's result is those lines applied to what the launch leaves in the result array. -/
theorem tail_eq (c : Dev nD) :
    Pipeline.afterTail₀ cfgs (dats m) 0 (V0 m) [hostOps1] c main_v9 = tailOf (outArr m c) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v7)
      = outArr m c :=
    (Pipeline.withArrays_arr spec0 launch0.win.arr_inj c _ _ 4).trans (final_out m c)
  rw [hw]
  rfl

/-- The result array's two entries, by group. -/
def grpEquiv : Fin 2 ≃ S2x1x1.Idx where
  toFun p := ix3 p 0 0
  invFun i := ⟨(i 0).val, (i 0).isLt⟩
  left_inv p := rfl
  right_inv i := by
    have h1 : (i 1).val < 1 := (i 1).isLt
    have h2 : (i 2).val < 1 := (i 2).isLt
    funext a
    match a with
    | ⟨0, _⟩ => rfl
    | ⟨1, _⟩ => exact Fin.ext (by show 0 = (i 1).val; omega)
    | ⟨2, _⟩ => exact Fin.ext (by show 0 = (i 2).val; omega)

/-- The host lines after the launch give the sum of the two entries over 16384. -/
theorem tailOf_apply (a : S2x1x1.Idx → EReal) (i : S_.Idx) :
    tailOf a i = Ideal.div (a (ix3 0 0 0) + a (ix3 1 0 0)) nB := by
  unfold tailOf
  simp only [Host.divf, Host.reduceAdd, Ideal.hostReduceAdd_def, Ideal.hostDivf_def]
  rw [Ideal.hostReduceAdd_total reducesTo_S2x1x1_S_d0_1_2 (fun b => b.elim0) a _ i, ← Equiv.sum_comp grpEquiv a,
    Fin.sum_univ_two]
  show Ideal.div (Ideal.ofBits .f32 0x00000000#32 + (a (ix3 0 0 0) + a (ix3 1 0 0))) nB = _
  rw [Ideal.ofBits_zero_f32, zero_add]

/-- The accumulator after the last point of the first group is its four tile sums added from zero, -/
theorem acc_three (c : Dev nD) (h : 3 < cfg0.N) :
    accAt m c 3 h = (((0 + part m c ⟨0, by rw [show cfg0.N = 8 from N_0]; decide⟩) + part m c ⟨1, by rw [show cfg0.N = 8 from N_0]; decide⟩) + part m c ⟨2, by rw [show cfg0.N = 8 from N_0]; decide⟩) + part m c ⟨3, by rw [show cfg0.N = 8 from N_0]; decide⟩ := by
  simp only [accAt]
  rfl

/-- and after the last point of the second group likewise: the fifth point starts again from zero. -/
theorem acc_seven (c : Dev nD) (h : 7 < cfg0.N) :
    accAt m c 7 h = (((0 + part m c ⟨4, by rw [show cfg0.N = 8 from N_0]; decide⟩) + part m c ⟨5, by rw [show cfg0.N = 8 from N_0]; decide⟩) + part m c ⟨6, by rw [show cfg0.N = 8 from N_0]; decide⟩) + part m c ⟨7, by rw [show cfg0.N = 8 from N_0]; decide⟩ := by
  simp only [accAt]
  rfl

/-- The two groups' accumulators add up to the sum of the hinges over the whole batch. -/
theorem total_eq (c : Dev nD) (lab : Dev nD → Fin 16384 → Fin 500) (hlab : ∀ (c : Dev nD) (b : Fin 16384), (m ((c : Thread nD τ).loc main_arg2) : Vec Ideal S16384 .i32) (ix1 b) = BitVec.ofNat 32 (lab c b).val) :
    outArr m c (ix3 0 0 0) + outArr m c (ix3 1 0 0)
      = ∑ b : Fin 16384, row (m ((c : Thread nD τ).loc main_arg0) : Vec Ideal S16384x512 .f32) (m ((c : Thread nD τ).loc main_arg1) : Vec Ideal S500x512 .f32) (lab c b) b := by
  have hN : cfg0.N = 8 := N_0
  have e0 : outArr m c (ix3 0 0 0) = accAt m c 3 (by omega) := rfl
  have e1 : outArr m c (ix3 1 0 0) = accAt m c 7 (by omega) := rfl
  rw [e0, e1, acc_three, acc_seven, sum_tiles, Fin.sum_univ_eight]
  simp only [part_eq m c _ (lab c) (hlab c), zero_add, add_assoc]
  rfl

/-- THE RUN, READ: every weakly fair execution of the idealized kernel's program terminates with its result at the loss of
    the classes the labels name, and its arguments unchanged. -/
theorem run (lab : Dev nD → Fin 16384 → Fin 500) (hlab : ∀ (c : Dev nD) (b : Fin 16384), (m ((c : Thread nD τ).loc main_arg2) : Vec Ideal S16384 .i32) (ix1 b) = BitVec.ofNat 32 (lab c b).val) :
    θ_run defs (onTc (τ := τ) (main (F := Ideal))) ⟨m, fun _ => 0, ρ⟩ (fun r => ∀ c : Dev nD,
      r.2.mem ((c.tc : Thread nD τ).loc main_v9) = (fun _ => loss (m ((c : Thread nD τ).loc main_arg0) : Vec Ideal S16384x512 .f32) (m ((c : Thread nD τ).loc main_arg1) : Vec Ideal S500x512 .f32) (lab c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v9 (Pipeline.mem_restRefs_of main_v9 (by decide) (by decide))).trans
        ((tail_eq m c).trans (funext fun i => (tailOf_apply _ i).trans (by rw [total_eq m c lab hlab]; rfl))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.RefPos.lean ====
/-
  The reference's distances read at an index, at the ideal instance: entry (b, c) of its distance matrix is the guarded
  root of the expanded squared distance, and its positive distance of row b (a gather along the class axis at the row's
  class, behind a wrap of negative indices and an in-range test that a class below 500 passes) is the matrix's entry at
  the row's class.
-/
import proofs.«423197_j25778393710638_2_alg».proof.Proof.RefRead
import proofs.«423197_j25778393710638_2_alg».proof.Proof.Spec
import Idealize.ShloMosaic.Lib.StableHlo.Predicate
import Idealize.ShloMosaic.PureOps.Reduce

noncomputable section

namespace Cert.ReferenceIdeal.RefValue

open Idealize.ShloMosaic Idealize.ShloMosaic.ValueIdx Cert.ReferenceIdeal Cert.ReferenceIdeal.ReadP Cert.Contrast

/-- The row-norm chain of index maps lands on (b, k). -/
private theorem idx_f2 (b : Fin 16384) (c : Fin 500) (k : Fin 512) :
    idx_main_v1 (idx_main_v2 (idx_main_v6 (ix2 b c))) k = ix2 b k :=
  funext fun a => Fin.ext (by match a with | ⟨0, _⟩ => rfl | ⟨1, _⟩ => rfl)

/-- The prototype-norm chain of index maps lands on (c, k). -/
private theorem idx_p2 (b : Fin 16384) (c : Fin 500) (k : Fin 512) :
    idx_main_v4 (idx_main_v5 (idx_main_v7 (ix2 b c))) k = ix2 c k :=
  funext fun a => Fin.ext (by match a with | ⟨0, _⟩ => rfl | ⟨1, _⟩ => rfl)

/-- The left index of the product is (b, k). -/
private theorem idx_dl (b : Fin 16384) (c : Fin 500) (k : Fin 512) :
    lidx_main_v10 (ix2 b c) k = ix2 b k :=
  funext fun a => Fin.ext (by match a with | ⟨0, _⟩ => rfl | ⟨1, _⟩ => rfl)

/-- The right index of the product, through the transpose, is (c, k). -/
private theorem idx_dr (b : Fin 16384) (c : Fin 500) (k : Fin 512) :
    idx_main_v9 (ridx_main_v10 (ix2 b c) k) = ix2 c k :=
  funext fun a => Fin.ext (by match a with | ⟨0, _⟩ => rfl | ⟨1, _⟩ => rfl)

/-- The distance matrix: the guarded root of the squared distance. -/
theorem v16_apply (x0 : (⟨S16384x512, .f32⟩ : BufTy).Contents (Elt Ideal)) (x1 : (⟨S500x512, .f32⟩ : BufTy).Contents (Elt Ideal)) (b : Fin 16384) (c : Fin 500) :
    val_main_v16 (F := Ideal) x0 x1 (ix2 b c) = g (sq x0 x1 b c) := by
  rw [val_main_v16_apply, val_main_v15_apply, val_main_v13_apply, val_main_v8_apply, val_main_v6_apply, val_main_v2_apply,
    val_main_v1_apply, val_main_v7_apply, val_main_v5_apply, val_main_v4_apply, val_main_v12_apply, val_main_v11_apply,
    val_main_v10_apply, val_main_v14_apply]
  simp only [val_main_v0_apply, val_main_v3_apply, val_main_v9_apply, val_main_cst_apply, val_main_cst_0_apply,
    val_main_cst_1_apply, val_main_cst_2_apply, idx_f2, idx_p2, idx_dl, idx_dr, Ideal.hostUnary_sqrt_def,
    Ideal.maximumf_def, Ideal.subf_def, Ideal.addf_def, Ideal.mulf_def, Ideal.ofBits_def, Ideal.ofBits_zero_f32, zero_add]
  rfl

section Positive

variable (x2 : (⟨S16384, .i32⟩ : BufTy).Contents (Elt Ideal)) (lab : Fin 16384 → Fin 500)
  (hlab : ∀ b : Fin 16384, x2 (ix1 b) = BitVec.ofNat 32 (lab b).val)

/-- A class below 500 is its word's value. -/
private theorem lab_toNat (l : Fin 500) : (BitVec.ofNat 32 l.val).toNat = l.val := by
  rw [BitVec.toNat_ofNat]
  exact Nat.mod_eq_of_lt (by have := l.isLt; omega)

include hlab

/-- Row b's class word, as a column entry. -/
private theorem v17_at (b : Fin 16384) (q : Fin 1) :
    val_main_v17 (F := Ideal) x2 (ix2 b q) = BitVec.ofNat 32 (lab b).val := by
  have e : idx_main_v17 (ix2 b q) = ix1 b := funext fun a => Fin.ext (by match a with | ⟨0, _⟩ => rfl)
  rw [val_main_v17_apply, e, hlab]

/-- The wrap of negative indices leaves a class below 500 alone: its word is not negative. -/
private theorem call0_v4_at (b : Fin 16384) (q : Fin 1) :
    val_main_call0_v4 (F := Ideal) x2 (ix2 b q) = BitVec.ofNat 32 (lab b).val := by
  rw [val_main_call0_v4_apply, val_main_call0_v1_apply, v17_at x2 lab hlab, val_main_call0_v0_apply, val_main_call0_c_apply]
  have hneg : ¬ IntOp.cmpi .slt (BitVec.ofNat 32 (lab b).val) 0#32 = 1#1 := by
    rw [StableHlo.Predicate.slt_iff_toNat (by rw [lab_toNat]; have := (lab b).isLt; omega) (by decide)]
    exact Nat.not_lt_zero _
  rw [eq_zero_of_ne_one hneg, select_zero]

/-- The index array of the gather holds row b's class word. -/
private theorem call0_v5_at (b : Fin 16384) (q r : Fin 1) :
    val_main_call0_v5 (F := Ideal) x2 (ix3 b q r) = BitVec.ofNat 32 (lab b).val := by
  have e : idx_main_call0_v5 (ix3 b q r) = ix2 b 0 := funext fun a => Fin.ext (by
    match a with
    | ⟨0, _⟩ => show ((b.val * 1 + q.val) * 1 + r.val) / 1 = b.val; omega
    | ⟨1, _⟩ => rfl)
  rw [val_main_call0_v5_apply, e]
  exact call0_v4_at x2 lab hlab b 0

/-- The in-range test passes everywhere: 0 ≤ class ≤ 499. -/
private theorem call0_v11_at (i : S16384x1x1.Idx) : val_main_call0_v11 (F := Ideal) x2 i = 1#1 := by
  obtain ⟨b, q, r, rfl⟩ : ∃ (b : Fin 16384) (q r : Fin 1), i = ix3 b q r := ⟨i 0, i 1, i 2, eq_ix3 i⟩
  rw [val_main_call0_v11_apply, val_main_call0_v7_apply, val_main_call0_v10_apply, call0_v5_at x2 lab hlab,
    val_main_call0_v6_apply, val_main_call0_c_2_apply, val_main_call0_v9_apply, val_main_call0_v8_apply,
    val_main_call0_c_1_apply]
  have h499 : (499#32 : BitVec 32).toNat = 499 := by decide
  have hl := (lab b).isLt
  refine IntOp.andi_eq_one.2 ⟨?_, ?_⟩
  · rw [StableHlo.Predicate.sge_iff_toNat (by rw [lab_toNat]; omega) (by decide)]
    exact Nat.zero_le _
  · rw [StableHlo.Predicate.sle_iff_toNat (by rw [lab_toNat]; omega) (by decide), lab_toNat, h499]
    omega

end Positive

/-- An and-fold that starts at 1 and meets only 1s is 1. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  have h11 : IntOp.andi 1#1 1#1 = 1#1 := by decide
  rw [Host.reduce_eq_foldl, hi]
  generalize ((List.finRange s.numel).map s.rowMajor.symm).filter (fun i => h.drop i = j) = l
  induction l with
  | nil => rfl
  | cons a l ih => rw [List.foldl_cons, hx a, h11]; exact ih

/-- The gather's operand index on the batch axis is the row. -/
private theorem gather_axis0 (idx : IVec S16384x1x1 32) (b : Fin 16384) :
    (gather_S16384x500_S16384x1x1_S16384x1_n_1_0_0_1_2_11.operandIdx (ix2 b 0) idx 0).val = b.val := by
  show gather_S16384x500_S16384x1x1_S16384x1_n_1_0_0_1_2_11.start (ix2 b 0) idx 0
    + gather_S16384x500_S16384x1x1_S16384x1_n_1_0_0_1_2_11.batchCoord (ix2 b 0) 0
    + gather_S16384x500_S16384x1x1_S16384x1_n_1_0_0_1_2_11.offCoord (ix2 b 0) 0 = b.val
  rw [GatherDims.start_batching _ _ _ _ (show (0 : Fin S16384x500.rank) ∈ gather_S16384x500_S16384x1x1_S16384x1_n_1_0_0_1_2_11.operandBatchingDims by decide),
    GatherDims.offCoord_eq_zero _ _ _ (show ¬ (0 : Fin S16384x500.rank) ∈ gather_S16384x500_S16384x1x1_S16384x1_n_1_0_0_1_2_11.sKept by decide)]
  unfold GatherDims.batchCoord
  rw [dif_pos (show (0 : Fin S16384x500.rank) ∈ gather_S16384x500_S16384x1x1_S16384x1_n_1_0_0_1_2_11.operandBatchingDims by decide),
    Nat.add_zero, Nat.zero_add]
  rfl

/-- The gather's operand index on the class axis is the start index, read signed and clamped to 499. -/
private theorem gather_axis1 (idx : IVec S16384x1x1 32) (b : Fin 16384) :
    (gather_S16384x500_S16384x1x1_S16384x1_n_1_0_0_1_2_11.operandIdx (ix2 b 0) idx 1).val
      = min (idx (ix3 b 0 0)).toInt.toNat 499 := by
  show gather_S16384x500_S16384x1x1_S16384x1_n_1_0_0_1_2_11.start (ix2 b 0) idx 1
    + gather_S16384x500_S16384x1x1_S16384x1_n_1_0_0_1_2_11.batchCoord (ix2 b 0) 1
    + gather_S16384x500_S16384x1x1_S16384x1_n_1_0_0_1_2_11.offCoord (ix2 b 0) 1 = _
  rw [GatherDims.batchCoord_eq_zero _ _ _ (show ¬ (1 : Fin S16384x500.rank) ∈ gather_S16384x500_S16384x1x1_S16384x1_n_1_0_0_1_2_11.operandBatchingDims by decide),
    GatherDims.offCoord_eq_zero _ _ _ (show ¬ (1 : Fin S16384x500.rank) ∈ gather_S16384x500_S16384x1x1_S16384x1_n_1_0_0_1_2_11.sKept by decide)]
  unfold GatherDims.start
  rw [dif_pos (show (1 : Fin S16384x500.rank) ∈ gather_S16384x500_S16384x1x1_S16384x1_n_1_0_0_1_2_11.startIndexMap by decide)]
  have hsi : gather_S16384x500_S16384x1x1_S16384x1_n_1_0_0_1_2_11.siIdx (ix2 b 0)
      ⟨List.idxOf (1 : Fin S16384x500.rank) gather_S16384x500_S16384x1x1_S16384x1_n_1_0_0_1_2_11.startIndexMap,
        List.idxOf_lt_length_iff.2 (show (1 : Fin S16384x500.rank) ∈ gather_S16384x500_S16384x1x1_S16384x1_n_1_0_0_1_2_11.startIndexMap by decide)⟩
      = ix3 b 0 0 := by
    funext a; refine Fin.ext ?_
    match a with
    | ⟨0, _⟩ => rfl
    | ⟨1, _⟩ => rfl
    | ⟨2, _⟩ => rfl
  rw [hsi]
  rfl

/-- The gather along the class axis, read at row b: the operand's entry at the row's start index, when that index is
    a class below 500. -/
private theorem gather_at {α : Type} (x : S16384x500.Idx → α) (idx : IVec S16384x1x1 32) (b : Fin 16384) (l : Fin 500)
    (hidx : idx (ix3 b 0 0) = BitVec.ofNat 32 l.val) :
    Host.gather gather_S16384x500_S16384x1x1_S16384x1_n_1_0_0_1_2_11 x idx (ix2 b 0) = x (ix2 b l) := by
  unfold Host.gather
  refine congrArg x (funext fun a => Fin.ext ?_)
  match a with
  | ⟨0, _⟩ => exact gather_axis0 idx b
  | ⟨1, _⟩ =>
    refine (gather_axis1 idx b).trans ?_
    rw [hidx, StableHlo.Predicate.toInt_ofNat_small _ (by have := l.isLt; omega)]
    show min l.val 499 = l.val
    have := l.isLt
    omega

/-- The positive distance of row b: the matrix's entry at the row's class. -/
theorem v19_apply (x0 : (⟨S16384x512, .f32⟩ : BufTy).Contents (Elt Ideal)) (x1 : (⟨S500x512, .f32⟩ : BufTy).Contents (Elt Ideal)) (x2 : (⟨S16384, .i32⟩ : BufTy).Contents (Elt Ideal))
    (lab : Fin 16384 → Fin 500) (hlab : ∀ b : Fin 16384, x2 (ix1 b) = BitVec.ofNat 32 (lab b).val) (b : Fin 16384) :
    val_main_v19 (F := Ideal) x0 x1 x2 (ix1 b) = g (sq x0 x1 b (lab b)) := by
  have e : idx_main_v19 (ix1 b) = ix2 b 0 := funext fun a => Fin.ext (by
    match a with
    | ⟨0, _⟩ => exact Nat.div_one _
    | ⟨1, _⟩ => rfl)
  have h12 : val_main_call0_v12 (F := Ideal) x2 (ix2 b 0) = 1#1 := by
    unfold val_main_call0_v12
    exact reduce_andi_ones _ _ _ _ (call0_v11_at x2 lab hlab) (fun _ => rfl) _
  have h13 : val_main_call0_v13 (F := Ideal) x0 x1 x2 (ix2 b 0) = val_main_v16 (F := Ideal) x0 x1 (ix2 b (lab b)) := by
    unfold val_main_call0_v13
    exact gather_at _ _ b (lab b) (call0_v5_at x2 lab hlab b 0 0)
  rw [val_main_v19_apply, e, val_main_v18_apply, h12, select_one, h13]
  exact v16_apply x0 x1 b (lab b)

end Cert.ReferenceIdeal.RefValue

end
-- ==== Proof.RefLoss.lean ====
/-
  The reference's result at the ideal instance is the loss: its negative distance of row b is the minimum, from top,
  over the classes of the distance matrix's row with the row's own class filled with top; the hinge and the mean follow
  entry by entry.
-/
import proofs.«423197_j25778393710638_2_alg».proof.Proof.RefPos
import Idealize.ShloMosaic.Lib.ValueIdxRank1

noncomputable section

namespace Cert.ReferenceIdeal.RefValue

open Idealize.ShloMosaic Idealize.ShloMosaic.ValueIdx Cert.ReferenceIdeal Cert.ReferenceIdeal.ReadP Cert.Contrast

/-- The infinity word is top. -/
private theorem ofBits_inf_f32 : Ideal.ofBits .f32 0x7F800000#32 = (⊤ : EReal) := by
  simp [Ideal.ofBits, Ideal.ieee]

/-- Two classes' words agree exactly when the classes do: a class is below 500, far below 2^32. -/
private theorem cmpi_eq_class (l c : Fin 500) :
    IntOp.cmpi .eq (BitVec.ofNat 32 l.val) (BitVec.ofNat 32 c.val) = if c = l then 1#1 else 0#1 := by
  unfold IntOp.cmpi
  by_cases h : c = l
  · subst h; simp
  · rw [if_neg h]
    have hne : ¬ (BitVec.ofNat 32 l.val = BitVec.ofNat 32 c.val) := by
      intro e
      have e' := congrArg BitVec.toNat e
      rw [BitVec.toNat_ofNat, BitVec.toNat_ofNat, Nat.mod_eq_of_lt (by have := l.isLt; omega),
        Nat.mod_eq_of_lt (by have := c.isLt; omega)] at e'
      exact h (Fin.ext e'.symm)
    have hb : (BitVec.ofNat 32 l.val == BitVec.ofNat 32 c.val) = false := beq_eq_false_iff_ne.mpr hne
    show BitVec.ofBool (BitVec.ofNat 32 l.val == BitVec.ofNat 32 c.val) = 0#1
    rw [hb]; rfl

/-- The reduced index b with class c put back on the class axis is (b, c). -/
private theorem lift_row (h : S16384x500.Reduces [1] S16384) (b : Fin 16384) (k : Fin (S16384x500.size 1)) :
    h.lift (ix1 b) k = ix2 b (⟨k.val, k.isLt⟩ : Fin 500) := by
  funext c; apply Fin.ext
  fin_cases c <;> rfl

/-- Entry (b, c) of the masked matrix: top at the row's own class, the guarded root elsewhere. -/
private theorem v21_entry (x0 : (⟨S16384x512, .f32⟩ : BufTy).Contents (Elt Ideal)) (x1 : (⟨S500x512, .f32⟩ : BufTy).Contents (Elt Ideal)) (x2 : (⟨S16384, .i32⟩ : BufTy).Contents (Elt Ideal))
    (lab : Fin 16384 → Fin 500) (hlab : ∀ b : Fin 16384, x2 (ix1 b) = BitVec.ofNat 32 (lab b).val) (b : Fin 16384) (c : Fin 500) :
    val_main_v21 (F := Ideal) x0 x1 x2 (ix2 b c) = if c = lab b then ⊤ else g (sq x0 x1 b c) := by
  have e0 : idx_main_call1_v0 (idx_main_call1_v2 (ix2 b c)) = ix1 b :=
    funext fun a => Fin.ext (by match a with | ⟨0, _⟩ => rfl)
  rw [val_main_v21_apply, val_main_v20_apply, val_main_call1_v2_apply, val_main_call1_v0_apply, val_main_call1_v3_apply,
    val_main_call1_v1_apply, val_main_call2_v1_apply, val_main_call2_v0_apply, val_main_cst_3_apply, v16_apply, e0, hlab b]
  have e1 : (idx_main_call1_v3 (ix2 b c) 1).val = c.val := rfl
  rw [e1, cmpi_eq_class, Ideal.ofBits_def, ofBits_inf_f32]
  by_cases h : c = lab b
  · rw [if_pos h, if_pos h, select_one]
  · rw [if_neg h, if_neg h, select_zero]

/-- The negative distance of row b: the masked minimum of the guarded roots. -/
theorem v22_apply (x0 : (⟨S16384x512, .f32⟩ : BufTy).Contents (Elt Ideal)) (x1 : (⟨S500x512, .f32⟩ : BufTy).Contents (Elt Ideal)) (x2 : (⟨S16384, .i32⟩ : BufTy).Contents (Elt Ideal))
    (lab : Fin 16384 → Fin 500) (hlab : ∀ b : Fin 16384, x2 (ix1 b) = BitVec.ofNat 32 (lab b).val) (b : Fin 16384) :
    val_main_v22 (F := Ideal) x0 x1 x2 (ix1 b) = dneg x0 x1 (lab b) b := by
  have hR : S16384x500.Reduces [1] S16384 := by decide
  unfold val_main_v22
  rw [Host.reduce_eq_fold_single FloatOps.minimumf _ _ _ hR _ (ix1 b)]
  have hf : (val_main_v21 (F := Ideal) x0 x1 x2 ∘ hR.lift (ix1 b))
      = fun c : Fin 500 => if c = lab b then (⊤ : EReal) else g (sq x0 x1 b c) :=
    funext fun k => (congrArg (val_main_v21 (F := Ideal) x0 x1 x2) (lift_row hR b k)).trans
      (v21_entry x0 x1 x2 lab hlab b ⟨k.val, k.isLt⟩)
  rw [show val_main_cst_4 (F := Ideal) _ = (⊤ : EReal) from ofBits_inf_f32]
  unfold dneg
  exact congrArg (fun f => Finset.fold min (⊤ : EReal) f (Finset.univ : Finset (Fin 500))) hf

/-- The hinge of row b: the positive distance less the negative one, plus one, cut off at zero. -/
private theorem v26_entry (x0 : (⟨S16384x512, .f32⟩ : BufTy).Contents (Elt Ideal)) (x1 : (⟨S500x512, .f32⟩ : BufTy).Contents (Elt Ideal)) (x2 : (⟨S16384, .i32⟩ : BufTy).Contents (Elt Ideal))
    (lab : Fin 16384 → Fin 500) (hlab : ∀ b : Fin 16384, x2 (ix1 b) = BitVec.ofNat 32 (lab b).val) (b : Fin 16384) :
    val_main_v26 (F := Ideal) x0 x1 x2 (ix1 b) = row x0 x1 (lab b) b := by
  rw [val_main_v26_apply, val_main_v25_apply, val_main_v23_apply, val_main_v24_apply, val_main_cst_5_apply,
    val_main_call3_v0_apply, val_main_call3_cst_apply, v19_apply x0 x1 x2 lab hlab b, v22_apply x0 x1 x2 lab hlab b,
    Ideal.maximumf_def, Ideal.addf_def, Ideal.subf_def, Ideal.ofBits_def, Ideal.ofBits_def, Ideal.ofBits_zero_f32]
  rfl

/-- The reference's result is the loss. -/
theorem val_eq_loss (x0 : (⟨S16384x512, .f32⟩ : BufTy).Contents (Elt Ideal)) (x1 : (⟨S500x512, .f32⟩ : BufTy).Contents (Elt Ideal)) (x2 : (⟨S16384, .i32⟩ : BufTy).Contents (Elt Ideal))
    (lab : Fin 16384 → Fin 500) (hlab : ∀ b : Fin 16384, x2 (ix1 b) = BitVec.ofNat 32 (lab b).val) :
    val_main_v28 (F := Ideal) x0 x1 x2 = fun _ => loss x0 x1 lab := by
  funext i
  rw [val_main_v28_apply, val_main_v27_apply, val_main_cst_7_apply, val_main_cst_6_apply, Ideal.hostDivf_def,
    Ideal.ofBits_def, Ideal.ofBits_def, Ideal.ofBits_zero_f32, zero_add]
  unfold loss
  refine congrArg (fun s => Ideal.div s nB) ?_
  rw [← Equiv.sum_comp (idxEquiv1 (n := 16384)).symm (val_main_v26 (F := Ideal) x0 x1 x2)]
  exact Finset.sum_congr rfl fun b _ => v26_entry x0 x1 x2 lab hlab b

end Cert.ReferenceIdeal.RefValue

end
-- ==== Proof.PreLabels.lean ====
/-
  What the precondition says of the classes: its last conjunct, all of (0 <= labels) and (labels < 500) as signed 32-bit
  words, gives every row a class below 500 whose word the label is.
-/
import proofs.«423197_j25778393710638_2_alg».proof.Pre_finite_inputs
import proofs.«423197_j25778393710638_2_alg».proof.Proof.Spec
import Idealize.ShloMosaic.PureOps.Ideal
import Idealize.ShloMosaic.Lib.ReduceAll
import Idealize.ShloMosaic.Lib.StableHlo.Predicate
import Idealize.ShloMosaic.Lib.ValueIdx

noncomputable section

namespace Cert.PreLabels

open Idealize.ShloMosaic Idealize.ShloMosaic.ValueIdx Cert.Pre_finite_inputs

/-- The scalar shape has exactly one index. -/
private instance scalarIdx_subsingleton : Subsingleton S_.Idx := ⟨fun a b => funext fun d => d.elim0⟩

/-- A 32-bit word that reads, signed, at least 0 and below 500 has an unsigned value below 500. -/
private theorem toNat_lt_of_signed_range (w : BitVec 32) (h0 : IntOp.cmpi .sge w 0#32 = 1#1)
    (h5 : IntOp.cmpi .slt w 500#32 = 1#1) : w.toNat < 500 := by
  rw [IntOp.cmpi_sge, show (0#32 : BitVec 32).toInt = 0 from by decide] at h0
  rw [IntOp.cmpi_slt, show (500#32 : BitVec 32).toInt = 500 from by decide] at h5
  have hw := w.isLt
  rw [BitVec.toInt_eq_toNat_cond] at h0 h5
  split at h0 <;> omega

/-- The last conjunct of the precondition at one label: the word tests at least 0 and below 500, signed. -/
private theorem label_tests [Cert.Pre_finite_inputs.Facts] (x0 : FVec Ideal S16384x512 .f32) (x1 : FVec Ideal S500x512 .f32)
    (x2 : IVec S16384 32) (h : Cert.Pre_finite_inputs.fn (F := Ideal) x0 x1 x2 = fun _ => 1#1) (i : S16384.Idx) :
    IntOp.cmpi .sge (x2 i) 0#32 = 1#1 ∧ IntOp.cmpi .slt (x2 i) 500#32 = 1#1 := by
  have e := congrFun h ValueIdx.ix0
  dsimp only [Cert.Pre_finite_inputs.fn] at e
  -- the whole predicate is (the two float conjuncts) and (the all over the labels)
  have eAll := (IntOp.andi_eq_one.1 e).2
  -- an all that is 1 had a 1 at every label
  have eAt := Host.reduce_andi_all _ _ _ _ _ eAll i
  exact IntOp.andi_eq_one.1 eAt

/-- Under the precondition every label is the word of a class below 500. -/
theorem labels_of_pre [Cert.Pre_finite_inputs.Facts] (x0 : FVec Ideal S16384x512 .f32) (x1 : FVec Ideal S500x512 .f32) (x2 : IVec S16384 32)
    (h : Cert.Pre_finite_inputs.fn (F := Ideal) x0 x1 x2 = fun _ => 1#1) :
    ∃ lab : Fin 16384 → Fin 500, ∀ b : Fin 16384, x2 (ix1 b) = BitVec.ofNat 32 (lab b).val := by
  have hlt : ∀ b : Fin 16384, (x2 (ix1 b)).toNat < 500 := fun b =>
    toNat_lt_of_signed_range _ (label_tests x0 x1 x2 h (ix1 b)).1 (label_tests x0 x1 x2 h (ix1 b)).2
  exact ⟨fun b => ⟨(x2 (ix1 b)).toNat, hlt b⟩, fun b =>
    BitVec.eq_of_toNat_eq (by
      show (x2 (ix1 b)).toNat = (BitVec.ofNat 32 (x2 (ix1 b)).toNat).toNat
      rw [BitVec.toNat_ofNat]
      exact (Nat.mod_eq_of_lt (x2 (ix1 b)).isLt).symm)⟩

end Cert.PreLabels

end
-- ==== Proof.lean ====
/-
  The certificate: a contrastive hinge loss over 16384 feature rows and 500 class prototypes, computed by a kernel that
  walks the batch in eight tiles of 2048 rows (two groups of four, each group summing its tiles' hinges into an
  accumulator that is written out after the group's last tile, the two group sums then added and divided by 16384 on the
  host), against a reference that forms the whole distance matrix, gathers each row's positive distance, takes the
  masked minimum for its negative distance, and averages the hinges.

  At the ideal instance both are the loss of Proof/Spec.lean. The kernel selects the positive entry by a sum over a
  one-hot mask and takes the guarded root after the masked minimum of the squared distances; the reference gathers the
  entry and takes the minimum of the guarded roots. A sum over a one-hot mask is its one term; the guarded root is
  monotone and fixes the top element, so it passes through a minimum that starts from the top element; and the eight
  tiles partition the batch. The kernel's mask fill, a finite literal named as the top element, is the reference's
  infinity. None of these laws needs a finite argument; what the precondition gives is that every label is a class
  below 500, so that the one-hot row has exactly the gathered column set.

  The three frames are the generated ones (the reference's is its run with the result dropped); the one rewrite of the
  idealization is the named fill.
-/
import proofs.«423197_j25778393710638_2_alg».proof.Defs
import proofs.«423197_j25778393710638_2_alg».proof.Proof.Gen.Kernel
import proofs.«423197_j25778393710638_2_alg».proof.Proof.Gen.Kernel.Skeleton
import proofs.«423197_j25778393710638_2_alg».proof.Proof.Gen.Kernel.Launch
import proofs.«423197_j25778393710638_2_alg».proof.Proof.Gen.Kernel.Points
import proofs.«423197_j25778393710638_2_alg».proof.Proof.Gen.Kernel.Frame
import proofs.«423197_j25778393710638_2_alg».proof.Proof.Gen.KernelIdeal
import proofs.«423197_j25778393710638_2_alg».proof.Proof.Gen.KernelIdeal.Skeleton
import proofs.«423197_j25778393710638_2_alg».proof.Proof.Gen.KernelIdeal.Launch
import proofs.«423197_j25778393710638_2_alg».proof.Proof.Gen.KernelIdeal.Points
import proofs.«423197_j25778393710638_2_alg».proof.Proof.Gen.KernelIdeal.Frame
import proofs.«423197_j25778393710638_2_alg».proof.Proof.Gen.ReferenceIdeal
import proofs.«423197_j25778393710638_2_alg».proof.Proof.Gen.Pre_finite_inputs
import proofs.«423197_j25778393710638_2_alg».proof.Proof.KRun
import proofs.«423197_j25778393710638_2_alg».proof.Proof.RefLoss
import proofs.«423197_j25778393710638_2_alg».proof.Proof.PreLabels
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization's one rewrite: the mask fill's literal is named the top element. -/
theorem preserves : Cert.preserves_Kernel_KernelIdeal :=
  IdealRules.named_const.statement Cert.KernelIdeal.κ "pos_big" .f32 0x7149F2CA#32 ⊤ rfl

/-- At the ideal instance, from memories that agree on the arguments and under the precondition, both programs end with
    the loss of the classes the labels name. -/
theorem algebraic : Cert.algebraic_KernelIdeal_ReferenceIdeal := by
  intro m ρ m' ρ' hpre hagree
  have hl : ∀ c : Dev Cert.KernelIdeal.nD, ∃ lab : Fin 16384 → Fin 500, ∀ b : Fin 16384,
      (m ((c.tc : Thread Cert.KernelIdeal.nD Cert.KernelIdeal.τ).loc Cert.KernelIdeal.main_arg2) : IVec Cert.Pre_finite_inputs.S16384 32) (ix1 b)
        = BitVec.ofNat 32 (lab b).val :=
    fun c => Cert.PreLabels.labels_of_pre _ _ _ (hpre c)
  choose lab hlab using hl
  refine ⟨_, Cert.KernelIdeal.KRun.run m ρ lab hlab, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, (hagree c).1, (hagree c).2.1, (hagree c).2.2]
  exact Cert.ReferenceIdeal.RefValue.val_eq_loss _ _ _ (lab c) (hlab c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
